-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S8192 : Shape := ⟨1, ![8192]⟩
abbrev S256x8192 : Shape := ⟨2, ![256, 8192]⟩
abbrev S256 : Shape := ⟨1, ![256]⟩
abbrev S_ : Shape := ⟨0, ![]⟩
abbrev S8192x1 : Shape := ⟨2, ![8192, 1]⟩
abbrev S1x8192 : Shape := ⟨2, ![1, 8192]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 8
  | .vmem => 12
  | .smem => 0
  | _ => 0

abbrev bufTy : (tb : Table) → Fin (tcTables nBuf tb) → BufTy
  | .hbm, ⟨0, _⟩ => ⟨S8192x8192, .f32⟩
  | .hbm, ⟨1, _⟩ => ⟨S8192, .f32⟩
  | .hbm, ⟨2, _⟩ => ⟨S_, .f32⟩
  | .hbm, ⟨3, _⟩ => ⟨S8192, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .local _ .vmem, ⟨0, _⟩ => ⟨S256x8192, .f32⟩
  | .local _ .vmem, ⟨1, _⟩ => ⟨S256x8192, .f32⟩
  | .local _ .vmem, ⟨2, _⟩ => ⟨S256, .f32⟩
  | .local _ .vmem, ⟨3, _⟩ => ⟨S256, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 8], ![false, false]⟩

def k1_cond1 (i : grid1.Coords) : BitVec 1 :=
  let arg0 : BitVec 32 := BitVec.ofNat 32 (i 0).val
  let arg1 : BitVec 32 := BitVec.ofNat 32 (i 1).val
  let v0 : BitVec 1 := Scalar.cmpi .eq arg0 arg1
  let v1 : BitVec 32 := Scalar.extui v0
  let c0_i32 : BitVec 32 := 0#32
  let v2 : BitVec 1 := Scalar.cmpi .ne v1 c0_i32
  v2

def k1_cond2 (i : grid1.Coords) : BitVec 1 :=
  let arg0 : BitVec 32 := BitVec.ofNat 32 (i 0).val
  let arg1 : BitVec 32 := BitVec.ofNat 32 (i 1).val
  let v3 : BitVec 1 := Scalar.cmpi .ne arg0 arg1
  let v4 : BitVec 32 := Scalar.extui v3
  let c0_i32_0 : BitVec 32 := 0#32
  let v5 : BitVec 1 := Scalar.cmpi .ne v4 c0_i32_0
  v5

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S256x8192_S256x8192_0_0 : ∀ a, (![0, 0] : Fin 2 → Nat) a + S256x8192.size a ≤ S256x8192.size a
  h_S256x8192 : 0 < S256x8192.numel
  reduces_S256x8192_S256 : S256x8192.Reduces [1] S256
  inb_S256_S256_0 : ∀ a, (![0] : Fin 1 → Nat) a + S256.size a ≤ S256.size a
  h_S256 : 0 < S256.numel
  bcast_S_S8192 : S_.BroadcastsInDim S8192 (![] : Fin 0 → Fin S8192.rank)
  shapeCasts_S8192_S8192x1 : S8192.ShapeCasts S8192x1
  shapeCasts_S8192_S1x8192 : S8192.ShapeCasts S1x8192
  iota_S1024x1024_d0_w32 : S1024x1024.Iotas .tc 32 [0]
  iota_S1024x1024_d1_w32 : S1024x1024.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256.size a ≤ S8192.size a
  hwx0_1 : ∀ i : grid0.Coords, EltTy.bits .f32 = 32 ∨ (Rect.block (s := S8192) S256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1.size a ≤ S8192x1.size a
  hwx1_0 : ∀ i : grid1.Coords, EltTy.bits .f32 = 32 ∨ (Rect.block (s := S8192x1) S1024x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x8192.size a
  hwx1_1 : ∀ i : grid1.Coords, EltTy.bits .f32 = 32 ∨ (Rect.block (s := S1x8192) S1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .f32 = 32 ∨ (Rect.block (s := S8192x8192) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x8192.size a
  hwx1_3 : ∀ i : grid1.Coords, EltTy.bits .f32 = 32 ∨ (Rect.block (s := S8192x8192) S1024x1024.size (cc1_transform_3 i) (hinb1_3 i)).WholeWords (EltTy.packing .f32)

variable [Facts₀]

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v3) S1024x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond1 i == 1#1) && !(k1_cond2 i == 1#1) | ⟨_ + 4, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192 : Shape := ⟨1, ![8192]⟩
abbrev S_ : Shape := ⟨0, ![]⟩
abbrev S8192x1 : Shape := ⟨2, ![8192, 1]⟩
abbrev S8192x2 : Shape := ⟨2, ![8192, 2]⟩
abbrev S1x8192 : Shape := ⟨2, ![1, 8192]⟩

abbrev nBuf : Space → Nat
  | .hbm => 33
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192, .i32⟩
  | .hbm, ⟨2, _⟩ => ⟨S_, .i32⟩
  | .hbm, ⟨3, _⟩ => ⟨S8192, .i32⟩
  | .hbm, ⟨4, _⟩ => ⟨S8192, .i1⟩
  | .hbm, ⟨5, _⟩ => ⟨S_, .i32⟩
  | .hbm, ⟨6, _⟩ => ⟨S8192, .i32⟩
  | .hbm, ⟨7, _⟩ => ⟨S8192, .i32⟩
  | .hbm, ⟨8, _⟩ => ⟨S8192, .i32⟩
  | .hbm, ⟨9, _⟩ => ⟨S_, .i32⟩
  | .hbm, ⟨10, _⟩ => ⟨S8192, .i32⟩
  | .hbm, ⟨11, _⟩ => ⟨S8192, .i1⟩
  | .hbm, ⟨12, _⟩ => ⟨S_, .i32⟩
  | .hbm, ⟨13, _⟩ => ⟨S8192, .i32⟩
  | .hbm, ⟨14, _⟩ => ⟨S8192, .i32⟩
  | .hbm, ⟨15, _⟩ => ⟨S8192, .i32⟩
  | .hbm, ⟨16, _⟩ => ⟨S8192x1, .i32⟩
  | .hbm, ⟨17, _⟩ => ⟨S8192x1, .i32⟩
  | .hbm, ⟨18, _⟩ => ⟨S8192x2, .i32⟩
  | .hbm, ⟨19, _⟩ => ⟨S_, .f32⟩
  | .hbm, ⟨20, _⟩ => ⟨S8192, .f32⟩
  | .hbm, ⟨21, _⟩ => ⟨S8192x8192, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S8192x1, .f32⟩
  | .hbm, ⟨28, _⟩ => ⟨S8192x8192, .f32⟩
  | .hbm, ⟨29, _⟩ => ⟨S8192x8192, .f32⟩
  | .hbm, ⟨30, _⟩ => ⟨S1x8192, .f32⟩
  | .hbm, ⟨31, _⟩ => ⟨S8192x8192, .f32⟩
  | .hbm, ⟨32, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_1 : Ref sig .tc := ⟨.hbm, 9, rfl⟩
abbrev main_v6 : Ref sig .tc := ⟨.hbm, 10, rfl⟩
abbrev main_v7 : Ref sig .tc := ⟨.hbm, 11, rfl⟩
abbrev main_c_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  reducesTo_S8192x8192_S8192_d1 : S8192x8192.ReducesTo [1] S8192
  h_S_ : 0 < S_.numel
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  scatter_S8192x8192_S8192x2_S8192_n_01_01_1_wf : ScatterDims.WF S8192x8192 S8192x2 S8192 [] [0, 1] [0, 1] 1

variable [Facts₀]

def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf

class Facts : Prop extends Facts₀ where

variable [Facts]
-- ==== Proof.WordDegreeRegion.lean ====
/-
  The first kernel region: the degrees.  Its grid has 32 points; at point `t` the pipeline stages rows
  `256·t … 256·t + 255` of the matrix (all 8192 columns) and the body stores, for each of those rows, the sum of the
  row plus the self-loop weight into the 256 entries of the degree vector that the point writes back.

  Stated here, at any float instance and for any contents `V` of the core's buffers at the region's entry: the block a
  window holds at a point, what the body leaves in the output window's buffer (one store covering the whole buffer,
  its value a function of the input block alone), the body's triple, the pipeline's proof data and the body
  obligation at every point.
-/
import proofs.«136672_j3178275799590_1_alg».proof.Proof.Gen.Kernel.Launch
import proofs.«136672_j3178275799590_1_alg».proof.Proof.Gen.Kernel.Skeleton
import proofs.«136672_j3178275799590_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The matrix window's staging buffer holds the point's row block whenever the body runs: the window is fetched
    or its block index has not moved, it is never idle, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 256 × 8192 row block. -/
abbrev rRows : Rect S256x8192 := Rect.unit (s := S256x8192) ![0, 0] S256x8192.size inb_S256x8192_S256x8192_0_0
/-- The whole 256-entry slice of the degree vector. -/
abbrev rDeg : Rect S256 := Rect.unit (s := S256) ![0] S256.size inb_S256_S256_0

/-! ## What the body leaves in the degree window's buffer -/

/-- The degree window's buffer after the body: one store over the whole buffer, of the row sums of the block plus
    the self-loop weight. -/
def out0_1 (x0 : Vec F S256x8192 .f32) : Vec F S256 .f32 :=
  View.canon [⟨rDeg, k0_pay1 (View.ld x0 rRows)⟩]

/-- That store covers the buffer. -/
theorem cover0_1 (p0 : Vec F S256 .f32) (y : S256.Idx) :
    ∃ pc ∈ ([⟨rDeg, p0⟩] : List (View.Piece (Elt F) S256 .f32)), y ∈ pc.1.set :=
  View.cover_of_tiled [⟨rDeg, p0⟩] S256.size (by rfl) y

/-! ## The body's triple -/

set_option maxHeartbeats 1000000 in
/-- On whole staging memrefs, the row block's at contents `x0` and the degree slice's at anything, the body runs to
    the continuation with the row block unchanged and the degree slice at `out0_1 x0`. -/
theorem sound_kernel0 (c : Dev nD) (E : Set ℕ) (i : grid0.Coords) (arg1 : Memref sig .tc .vmem S256x8192 .f32) (harg1 : arg1.IsWhole)
    (arg2 : Memref sig .tc .vmem S256 .f32) (harg2 : arg2.IsWhole)
    (x0 : Vec F S256x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__degree_kernel i arg1 harg1 arg2 harg2) K := by
  simp only [cc0__degree_kernel_eq_skeleton]; unfold cc0__degree_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the degree pipeline on core `c`: the arrays as the region finds them; after the body at point
    `t` the matrix window's buffer at its row block and the degree window's at `out0_1` of that block; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the matrix window's memref holds its row block, so `sound_kernel0` applies; the invariant
    and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Regions

end
-- ==== Proof.WordScaleRegion.lean ====
/-
  The second kernel region: the scaling.  Its grid is 8 × 8; at point (i, j) the pipeline stages rows
  `1024·i …` of the row-scale column, columns `1024·j …` of the column-scale row, and the 1024 × 1024 tile (i, j) of the
  matrix, and the body stores the tile of the result.  On a diagonal tile (i = j) it stores
  `(s_row · (a + e)) · s_col`, with `e` the tile of the identity scaled by the self-loop weight; off the diagonal
  (i ≠ j) it stores `(s_row · a) · s_col`.  The two conditions are computed from the grid coordinates alone and
  exactly one of them holds at every point, so at every point exactly one store, over the whole tile, is made.

  Stated here, at any float instance and for any contents `V` of the core's buffers at the region's entry: the blocks,
  what the body leaves in the result window's buffer in each of the two cases, the body's triple in each case, the
  pipeline's proof data and the body obligation at every point.
-/
import proofs.«136672_j3178275799590_1_alg».proof.Proof.Gen.Kernel.Launch
import proofs.«136672_j3178275799590_1_alg».proof.Proof.Gen.Kernel.Skeleton
import proofs.«136672_j3178275799590_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds the point's block whenever the body runs, fetched there or not (an
    unfetched window's block index has not moved), for any proof data over `V`'s arrays whose body leaves the block
    in place: none of the three is ever idle or cut. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two cases of the grid point -/

/-- The point lies on the diagonal of the grid: the first store is made, the second is not. -/
abbrev onDiag (i : grid1.Coords) : Prop := k1_cond1 i = 1#1 ∧ ¬ k1_cond2 i = 1#1
/-- The point lies off the diagonal: the second store is made, the first is not. -/
abbrev offDiag (i : grid1.Coords) : Prop := ¬ k1_cond1 i = 1#1 ∧ k1_cond2 i = 1#1

/-- Every point of the grid is of exactly one of the two kinds (the conditions are `i = j` and `i ≠ j`): decided over
    the 64 points. -/
theorem diag_or_off : ∀ t : Fin cfg1.N, onDiag (grid1.coords t) ∨ offDiag (grid1.coords t) :=
  (by decide +kernel : ∀ t : Fin grid1.N, onDiag (grid1.coords t) ∨ offDiag (grid1.coords t))

/-! ## The body's accesses -/

/-- The whole 1024 × 1 row-scale block. -/
abbrev rCol : Rect S1024x1 := Rect.unit (s := S1024x1) ![0, 0] S1024x1.size inb_S1024x1_S1024x1_0_0
/-- The whole 1 × 1024 column-scale block. -/
abbrev rRow : Rect S1x1024 := Rect.unit (s := S1x1024) ![0, 0] S1x1024.size inb_S1x1024_S1x1024_0_0
/-- The whole 1024 × 1024 tile. -/
abbrev rTile : Rect S1024x1024 := Rect.unit (s := S1024x1024) ![0, 0] S1024x1024.size inb_S1024x1024_S1024x1024_0_0

/-! ## What the body leaves in the result window's buffer -/

/-- On a diagonal tile: one store over the whole tile, of `(s_row · (a + e)) · s_col`. -/
def outDiag (x0 : Vec F S1024x1 .f32) (x1 : Vec F S1x1024 .f32) (x2 : Vec F S1024x1024 .f32) : Vec F S1024x1024 .f32 :=
  View.canon [⟨rTile, k1_pay1 (View.ld x0 rCol) (View.ld x2 rTile) (View.ld x1 rRow)⟩]

/-- Off the diagonal: one store over the whole tile, of `(s_row · a) · s_col`. -/
def outOff (x0 : Vec F S1024x1 .f32) (x1 : Vec F S1x1024 .f32) (x2 : Vec F S1024x1024 .f32) : Vec F S1024x1024 .f32 :=
  View.canon [⟨rTile, k1_pay2 (View.ld x0 rCol) (View.ld x2 rTile) (View.ld x1 rRow)⟩]

/-- The result window's buffer after the body at a point of coordinates `i`: by the first condition. -/
def out1_3 (i : grid1.Coords) (x0 : Vec F S1024x1 .f32) (x1 : Vec F S1x1024 .f32) (x2 : Vec F S1024x1024 .f32) : Vec F S1024x1024 .f32 :=
  if k1_cond1 i = 1#1 then outDiag x0 x1 x2 else outOff x0 x1 x2

theorem out1_3_diag {i : grid1.Coords} (h : onDiag i) (x0 : Vec F S1024x1 .f32) (x1 : Vec F S1x1024 .f32) (x2 : Vec F S1024x1024 .f32) :
    out1_3 i x0 x1 x2 = outDiag x0 x1 x2 := by unfold out1_3; rw [if_pos h.1]
theorem out1_3_off {i : grid1.Coords} (h : offDiag i) (x0 : Vec F S1024x1 .f32) (x1 : Vec F S1x1024 .f32) (x2 : Vec F S1024x1024 .f32) :
    out1_3 i x0 x1 x2 = outOff x0 x1 x2 := by unfold out1_3; rw [if_neg h.1]

/-- A store over the whole tile covers the buffer. -/
theorem cover1_3 (p0 : Vec F S1024x1024 .f32) (y : S1024x1024.Idx) :
    ∃ pc ∈ ([⟨rTile, p0⟩] : List (View.Piece (Elt F) S1024x1024 .f32)), y ∈ pc.1.set :=
  View.cover_of_tiled [⟨rTile, p0⟩] S1024x1024.size (by rfl) y

/-! ## The body's triple, case by case -/

set_option maxHeartbeats 1000000 in
/-- On a diagonal point: on whole staging memrefs, the inputs' at contents `x0`, `x1`, `x2` and the result's at anything,
    the body runs to the continuation with the inputs unchanged and the result tile at `outDiag`. -/
theorem sound_kernel1_diag (c : Dev nD) (E : Set ℕ) (i : grid1.Coords) (hc0 : k1_cond1 i = 1#1) (hc1 : ¬ k1_cond2 i = 1#1)
    (arg2 : Memref sig .tc .vmem S1024x1 .f32) (harg2 : arg2.IsWhole) (arg3 : Memref sig .tc .vmem S1x1024 .f32) (harg3 : arg3.IsWhole)
    (arg4 : Memref sig .tc .vmem S1024x1024 .f32) (harg4 : arg4.IsWhole) (arg5 : Memref sig .tc .vmem S1024x1024 .f32) (harg5 : arg5.IsWhole)
    (x0 : Vec F S1024x1 .f32) (x1 : Vec F S1x1024 .f32) (x2 : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outDiag x0 x1 x2)) -∗ K ⟨⟩))
      ⊢ wp frame (wpE (defs₀ (F := F)) Variants.none c none) E (cc1__scale_kernel i arg2 harg2 arg3 harg3 arg4 harg4 arg5 harg5) K := by
  simp only [cc1__scale_kernel_eq_skeleton]; unfold cc1__scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

set_option maxHeartbeats 1000000 in
/-- Off the diagonal: the same with the result tile at `outOff`. -/
theorem sound_kernel1_off (c : Dev nD) (E : Set ℕ) (i : grid1.Coords) (hc0 : ¬ k1_cond1 i = 1#1) (hc1 : k1_cond2 i = 1#1)
    (arg2 : Memref sig .tc .vmem S1024x1 .f32) (harg2 : arg2.IsWhole) (arg3 : Memref sig .tc .vmem S1x1024 .f32) (harg3 : arg3.IsWhole)
    (arg4 : Memref sig .tc .vmem S1024x1024 .f32) (harg4 : arg4.IsWhole) (arg5 : Memref sig .tc .vmem S1024x1024 .f32) (harg5 : arg5.IsWhole)
    (x0 : Vec F S1024x1 .f32) (x1 : Vec F S1x1024 .f32) (x2 : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outOff x0 x1 x2)) -∗ K ⟨⟩))
      ⊢ wp frame (wpE (defs₀ (F := F)) Variants.none c none) E (cc1__scale_kernel i arg2 harg2 arg3 harg3 arg4 harg4 arg5 harg5) K := by
  simp only [cc1__scale_kernel_eq_skeleton]; unfold cc1__scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- At the coordinates of a grid point: the result tile ends at `out1_3`, whichever case the point is. -/
theorem sound_kernel1 (c : Dev nD) (E : Set ℕ) (t : Fin cfg1.N)
    (arg2 : Memref sig .tc .vmem S1024x1 .f32) (harg2 : arg2.IsWhole) (arg3 : Memref sig .tc .vmem S1x1024 .f32) (harg3 : arg3.IsWhole)
    (arg4 : Memref sig .tc .vmem S1024x1024 .f32) (harg4 : arg4.IsWhole) (arg5 : Memref sig .tc .vmem S1024x1024 .f32) (harg5 : arg5.IsWhole)
    (x0 : Vec F S1024x1 .f32) (x1 : Vec F S1x1024 .f32) (x2 : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 (grid1.coords t) x0 x1 x2)) -∗ K ⟨⟩))
      ⊢ wp frame (wpE (defs₀ (F := F)) Variants.none c none) E (cc1__scale_kernel (grid1.coords t) arg2 harg2 arg3 harg3 arg4 harg4 arg5 harg5) K := by
  rcases diag_or_off t with h | h
  · rw [out1_3_diag h]; exact sound_kernel1_diag c E _ h.1 h.2 arg2 harg2 arg3 harg3 arg4 harg4 arg5 harg5 x0 x1 x2 K
  · rw [out1_3_off h]; exact sound_kernel1_off c E _ h.1 h.2 arg2 harg2 arg3 harg3 arg4 harg4 arg5 harg5 x0 x1 x2 K

/-! ## The pipeline's proof data -/

/-- The proof data of the scaling pipeline on core `c`: the arrays as the region finds them; after the body at point
    `t` each input window's buffer at its block and the result window's at `out1_3` of the three blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (grid1.coords t) (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (grid1.coords t) (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- The result window is written back at every point, so what the obligation asks of its buffer after the body is
    the stated contents, whatever the window's idle table says of the point. -/
theorem leaves1_3 (c : Dev nD) (t : Fin cfg1.N) :
    ((dat1 V c).leavesExact 3 t : sProp 𝕄) = owns (c : Thread nD τ) (st1_3 t) fullShare ((dat1 V c).after 3 t) := by
  unfold Dat.leavesExact
  have hfl : (cfg1.win 3).flush t = true := flush1_3 t
  cases cfg1.idle 3 (cfg1.grid.coords t)
  · rfl
  · simp only [hfl]

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ (dat1 V c).leavesExact 3 t)

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    leaves1_3, after1_0, after1_1, after1_2, after1_3]
  iintro ⟨HΦ, Ho, ⟨%d0, H0⟩, ⟨%d1, H1⟩, ⟨%d2, H2⟩, ⟨%d3, H3⟩⟩
  iapply (sound_kernel1 c Set.univ t _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Regions

end
-- ==== Proof.WordWholeRun.lean ====
/-
  The whole run of the program: the degree region, the five host operations between the regions (the exponent
  constant, its broadcast, the power of the degrees, and the two reshapes of the scales into a column and a row), and
  the scaling region, as three segments over the core's unscoped buffers.

  The buffers' contents at the segment boundaries are a fold from the launch memory: after the degree region the
  degree vector holds what the region's 32 write-backs leave and every other buffer is as launched; the host stretch
  then writes its five results; after the scaling region the result matrix holds what the 64 write-backs leave.  No
  segment writes the argument matrix, so the fold read at the argument walks back to the launch memory.  The run
  theorem states, for every weakly fair execution from any memory with zero counters: it terminates, nothing faults,
  the result buffer ends at the scaling region's written-back array and the argument ends as launched.
-/
import proofs.«136672_j3178275799590_1_alg».proof.Proof.Gen.Kernel.Launch
import proofs.«136672_j3178275799590_1_alg».proof.Proof.Gen.Kernel.Skeleton
import proofs.«136672_j3178275799590_1_alg».proof.Proof.Gen.Kernel.Points
import proofs.«136672_j3178275799590_1_alg».proof.Proof.Gen.Kernel.Regions
import proofs.«136672_j3178275799590_1_alg».proof.Proof.WordDegreeRegion
import proofs.«136672_j3178275799590_1_alg».proof.Proof.WordScaleRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch (the degree region's entry). -/
abbrev W0 : Dev nD → Valuation τ sig (Elt F) := fun c b => (s₀ m ρ).mem ((c : Dev nD), b)
/-- The same read at the TensorCore's references. -/
abbrev VA : (c : Dev nD) → (b : Ref sig .tc) → Buf (Elt F) ((c : Thread nD τ).loc b) := fun c b => W0 m ρ c b
/-- At the degree region's exit: its arrays at what the pipeline leaves, every other buffer as entered. -/
def W1 (c : Dev nD) : Valuation τ sig (Elt F) :=
  Pipeline.withArrays spec0 c (W0 m ρ c) fun w => (dat0 (VA m ρ) c).arrAt w cfg0.N
theorem W1_arr (c : Dev nD) (w : Fin cfg0.W) :
    W1 m ρ c (Proc.devRef .tc (Pipeline.arrRef spec0 w)) = (dat0 (VA m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev VA' : (c : Dev nD) → (b : Ref sig .tc) → Buf (Elt F) ((c : Thread nD τ).loc b) := fun c b => W1 m ρ c b
theorem hF0 (c : Dev nD) (w : Fin cfg0.W) : (dat0 (VA m ρ) c).arrAt w cfg0.N = VA' m ρ c (Pipeline.arrRef spec0 w) :=
  (W1_arr m ρ c w).symm
theorem hrest0 (c : Dev nD) : ∀ b, b ∉ Finset.univ.image (Pipeline.arrRef spec0) → VA' m ρ c b = VA m ρ c b :=
  fun b hb => W1_of_ne m ρ c b fun w e => hb (Finset.mem_image.mpr ⟨w, Finset.mem_univ _, e⟩)

/-- After the host stretch (the scaling region's entry). -/
abbrev W2 : Dev nD → Valuation τ sig (Elt F) := fun c => StableHlo.after hostOps1 (W1 m ρ c)
/-- The same read at the TensorCore's references. -/
abbrev VB : (c : Dev nD) → (b : Ref sig .tc) → Buf (Elt F) ((c : Thread nD τ).loc b) := fun c b => W2 m ρ c b
/-- At the scaling region's exit: its arrays at what the pipeline leaves, every other buffer as entered. -/
def W3 (c : Dev nD) : Valuation τ sig (Elt F) :=
  Pipeline.withArrays spec1 c (W2 m ρ c) fun w => (dat1 (VB m ρ) c).arrAt w cfg1.N
theorem W3_arr (c : Dev nD) (w : Fin cfg1.W) :
    W3 m ρ c (Proc.devRef .tc (Pipeline.arrRef spec1 w)) = (dat1 (VB m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev VB' : (c : Dev nD) → (b : Ref sig .tc) → Buf (Elt F) ((c : Thread nD τ).loc b) := fun c b => W3 m ρ c b
theorem hF1 (c : Dev nD) (w : Fin cfg1.W) : (dat1 (VB m ρ) c).arrAt w cfg1.N = VB' m ρ c (Pipeline.arrRef spec1 w) :=
  (W3_arr m ρ c w).symm
theorem hrest1 (c : Dev nD) : ∀ b, b ∉ Finset.univ.image (Pipeline.arrRef spec1) → VB' m ρ c b = VB m ρ c b :=
  fun b hb => W3_of_ne m ρ c b fun w e => hb (Finset.mem_image.mpr ⟨w, Finset.mem_univ _, e⟩)

/-! ## The argument ends as launched, the result at the scaling region's array -/

/-- No host operation writes the argument and both regions read it through an input window: the fold at the
    argument's buffer walks back to the launch memory. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 2).trans (((dat1 (VB m ρ) c).arrAt_in 2 rfl _).trans (A_eq1 (VB m ρ) c 2))
    _ = W1 m ρ c (Proc.devRef .tc main_arg0) := StableHlo.after_of_writes_sub hostOps1 _ hostOps1_writes (by decide)
    _ = W0 m ρ c (Proc.devRef .tc main_arg0) := (W1_arr m ρ c 0).trans (((dat0 (VA m ρ) c).arrAt_in 0 rfl _).trans (A_eq0 (VA m ρ) c 0))
    _ = m ((c : Thread nD τ).loc main_arg0) := rfl

/-- The result buffer ends at what the scaling region's write-backs leave. -/
theorem W3_main_v5 (c : Dev nD) : W3 m ρ c (Proc.devRef .tc main_v5) = (dat1 (VB m ρ) c).arrAt 3 cfg1.N :=
  W3_arr m ρ c 3

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VA m ρ) c
  | ⟨1, _⟩ => fun c => dat1 (VB m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The degree region over the thread state: entered from every unscoped buffer at `W0`, left at `W1`.  Its arrays are
    split out of the unscoped buffers and put back at the exit contents; the generator register goes into the
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (VA m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VA m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VA m ρ c) (VA' m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The scaling region over the thread state: entered from every unscoped buffer at `W2`, left at `W3` (what the
    launch reads at the end), in the same way. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VB m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VB m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VB m ρ c) (VB' m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's three segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
/-- The program IS the run of the segments. -/
theorem main_run (c : Dev nD) : main (F := F) c = Pipeline.Seg.run (segs m ρ) := (main_chain c).trans (by chain_rfl)

set_option backward.isDefEq.respectTransparency.types false in
/-- THE RUN, at any float instance: from any memory with zero counters every weakly fair execution of the program
    terminates, nothing faulting, and in every final state the result buffer holds what the scaling region's
    write-backs leave and the argument matrix is as launched. -/
theorem run_all : θ_run defs (onTc (τ := τ) (main (F := F))) ⟨m, fun _ => 0, ρ⟩ (fun r => ∀ c : Dev nD,
      r.2.mem ((c.tc : Thread nD τ).loc main_v5) = (dat1 (VB m ρ) c).arrAt 3 cfg1.N
      ∧ r.2.mem ((c.tc : Thread nD τ).loc main_arg0) = m ((c.tc : Thread nD τ).loc main_arg0)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v5 (by decide))).trans (W3_main_v5 m ρ c),
       (h c _ (mem_uc main_arg0 (by decide))).trans (W3_main_arg0 m ρ c)⟩)

end Cert.Kernel.Regions

end
-- ==== Proof.DegreeRegion.lean ====
/-
  The first kernel region: the degrees.  Its grid has 32 points; at point `t` the pipeline stages rows
  `256·t … 256·t + 255` of the matrix (all 8192 columns) and the body stores, for each of those rows, the sum of the
  row plus the self-loop weight into the 256 entries of the degree vector that the point writes back.

  Stated here, at any float instance and for any contents `V` of the core's buffers at the region's entry: the block a
  window holds at a point, what the body leaves in the output window's buffer (one store covering the whole buffer,
  its value a function of the input block alone), the body's triple, the pipeline's proof data and the body
  obligation at every point.
-/
import proofs.«136672_j3178275799590_1_alg».proof.Proof.Gen.KernelIdeal.Launch
import proofs.«136672_j3178275799590_1_alg».proof.Proof.Gen.KernelIdeal.Skeleton
import proofs.«136672_j3178275799590_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The matrix window's staging buffer holds the point's row block whenever the body runs: the window is fetched
    or its block index has not moved, it is never idle, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 256 × 8192 row block. -/
abbrev rRows : Rect S256x8192 := Rect.unit (s := S256x8192) ![0, 0] S256x8192.size inb_S256x8192_S256x8192_0_0
/-- The whole 256-entry slice of the degree vector. -/
abbrev rDeg : Rect S256 := Rect.unit (s := S256) ![0] S256.size inb_S256_S256_0

/-! ## What the body leaves in the degree window's buffer -/

/-- The degree window's buffer after the body: one store over the whole buffer, of the row sums of the block plus
    the self-loop weight. -/
def out0_1 (x0 : Vec F S256x8192 .f32) : Vec F S256 .f32 :=
  View.canon [⟨rDeg, k0_pay1 (View.ld x0 rRows)⟩]

/-- That store covers the buffer. -/
theorem cover0_1 (p0 : Vec F S256 .f32) (y : S256.Idx) :
    ∃ pc ∈ ([⟨rDeg, p0⟩] : List (View.Piece (Elt F) S256 .f32)), y ∈ pc.1.set :=
  View.cover_of_tiled [⟨rDeg, p0⟩] S256.size (by rfl) y

/-! ## The body's triple -/

set_option maxHeartbeats 1000000 in
/-- On whole staging memrefs, the row block's at contents `x0` and the degree slice's at anything, the body runs to
    the continuation with the row block unchanged and the degree slice at `out0_1 x0`. -/
theorem sound_kernel0 (c : Dev nD) (E : Set ℕ) (i : grid0.Coords) (arg1 : Memref sig .tc .vmem S256x8192 .f32) (harg1 : arg1.IsWhole)
    (arg2 : Memref sig .tc .vmem S256 .f32) (harg2 : arg2.IsWhole)
    (x0 : Vec F S256x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__degree_kernel i arg1 harg1 arg2 harg2) K := by
  simp only [cc0__degree_kernel_eq_skeleton]; unfold cc0__degree_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the degree pipeline on core `c`: the arrays as the region finds them; after the body at point
    `t` the matrix window's buffer at its row block and the degree window's at `out0_1` of that block; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the matrix window's memref holds its row block, so `sound_kernel0` applies; the invariant
    and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Regions

end
-- ==== Proof.ScaleRegion.lean ====
/-
  The second kernel region: the scaling.  Its grid is 8 × 8; at point (i, j) the pipeline stages rows
  `1024·i …` of the row-scale column, columns `1024·j …` of the column-scale row, and the 1024 × 1024 tile (i, j) of the
  matrix, and the body stores the tile of the result.  On a diagonal tile (i = j) it stores
  `(s_row · (a + e)) · s_col`, with `e` the tile of the identity scaled by the self-loop weight; off the diagonal
  (i ≠ j) it stores `(s_row · a) · s_col`.  The two conditions are computed from the grid coordinates alone and
  exactly one of them holds at every point, so at every point exactly one store, over the whole tile, is made.

  Stated here, at any float instance and for any contents `V` of the core's buffers at the region's entry: the blocks,
  what the body leaves in the result window's buffer in each of the two cases, the body's triple in each case, the
  pipeline's proof data and the body obligation at every point.
-/
import proofs.«136672_j3178275799590_1_alg».proof.Proof.Gen.KernelIdeal.Launch
import proofs.«136672_j3178275799590_1_alg».proof.Proof.Gen.KernelIdeal.Skeleton
import proofs.«136672_j3178275799590_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds the point's block whenever the body runs, fetched there or not (an
    unfetched window's block index has not moved), for any proof data over `V`'s arrays whose body leaves the block
    in place: none of the three is ever idle or cut. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two cases of the grid point -/

/-- The point lies on the diagonal of the grid: the first store is made, the second is not. -/
abbrev onDiag (i : grid1.Coords) : Prop := k1_cond1 i = 1#1 ∧ ¬ k1_cond2 i = 1#1
/-- The point lies off the diagonal: the second store is made, the first is not. -/
abbrev offDiag (i : grid1.Coords) : Prop := ¬ k1_cond1 i = 1#1 ∧ k1_cond2 i = 1#1

/-- Every point of the grid is of exactly one of the two kinds (the conditions are `i = j` and `i ≠ j`): decided over
    the 64 points. -/
theorem diag_or_off : ∀ t : Fin cfg1.N, onDiag (grid1.coords t) ∨ offDiag (grid1.coords t) :=
  (by decide +kernel : ∀ t : Fin grid1.N, onDiag (grid1.coords t) ∨ offDiag (grid1.coords t))

/-! ## The body's accesses -/

/-- The whole 1024 × 1 row-scale block. -/
abbrev rCol : Rect S1024x1 := Rect.unit (s := S1024x1) ![0, 0] S1024x1.size inb_S1024x1_S1024x1_0_0
/-- The whole 1 × 1024 column-scale block. -/
abbrev rRow : Rect S1x1024 := Rect.unit (s := S1x1024) ![0, 0] S1x1024.size inb_S1x1024_S1x1024_0_0
/-- The whole 1024 × 1024 tile. -/
abbrev rTile : Rect S1024x1024 := Rect.unit (s := S1024x1024) ![0, 0] S1024x1024.size inb_S1024x1024_S1024x1024_0_0

/-! ## What the body leaves in the result window's buffer -/

/-- On a diagonal tile: one store over the whole tile, of `(s_row · (a + e)) · s_col`. -/
def outDiag (x0 : Vec F S1024x1 .f32) (x1 : Vec F S1x1024 .f32) (x2 : Vec F S1024x1024 .f32) : Vec F S1024x1024 .f32 :=
  View.canon [⟨rTile, k1_pay1 (View.ld x0 rCol) (View.ld x2 rTile) (View.ld x1 rRow)⟩]

/-- Off the diagonal: one store over the whole tile, of `(s_row · a) · s_col`. -/
def outOff (x0 : Vec F S1024x1 .f32) (x1 : Vec F S1x1024 .f32) (x2 : Vec F S1024x1024 .f32) : Vec F S1024x1024 .f32 :=
  View.canon [⟨rTile, k1_pay2 (View.ld x0 rCol) (View.ld x2 rTile) (View.ld x1 rRow)⟩]

/-- The result window's buffer after the body at a point of coordinates `i`: by the first condition. -/
def out1_3 (i : grid1.Coords) (x0 : Vec F S1024x1 .f32) (x1 : Vec F S1x1024 .f32) (x2 : Vec F S1024x1024 .f32) : Vec F S1024x1024 .f32 :=
  if k1_cond1 i = 1#1 then outDiag x0 x1 x2 else outOff x0 x1 x2

theorem out1_3_diag {i : grid1.Coords} (h : onDiag i) (x0 : Vec F S1024x1 .f32) (x1 : Vec F S1x1024 .f32) (x2 : Vec F S1024x1024 .f32) :
    out1_3 i x0 x1 x2 = outDiag x0 x1 x2 := by unfold out1_3; rw [if_pos h.1]
theorem out1_3_off {i : grid1.Coords} (h : offDiag i) (x0 : Vec F S1024x1 .f32) (x1 : Vec F S1x1024 .f32) (x2 : Vec F S1024x1024 .f32) :
    out1_3 i x0 x1 x2 = outOff x0 x1 x2 := by unfold out1_3; rw [if_neg h.1]

/-- A store over the whole tile covers the buffer. -/
theorem cover1_3 (p0 : Vec F S1024x1024 .f32) (y : S1024x1024.Idx) :
    ∃ pc ∈ ([⟨rTile, p0⟩] : List (View.Piece (Elt F) S1024x1024 .f32)), y ∈ pc.1.set :=
  View.cover_of_tiled [⟨rTile, p0⟩] S1024x1024.size (by rfl) y

/-! ## The body's triple, case by case -/

set_option maxHeartbeats 1000000 in
/-- On a diagonal point: on whole staging memrefs, the inputs' at contents `x0`, `x1`, `x2` and the result's at anything,
    the body runs to the continuation with the inputs unchanged and the result tile at `outDiag`. -/
theorem sound_kernel1_diag (c : Dev nD) (E : Set ℕ) (i : grid1.Coords) (hc0 : k1_cond1 i = 1#1) (hc1 : ¬ k1_cond2 i = 1#1)
    (arg2 : Memref sig .tc .vmem S1024x1 .f32) (harg2 : arg2.IsWhole) (arg3 : Memref sig .tc .vmem S1x1024 .f32) (harg3 : arg3.IsWhole)
    (arg4 : Memref sig .tc .vmem S1024x1024 .f32) (harg4 : arg4.IsWhole) (arg5 : Memref sig .tc .vmem S1024x1024 .f32) (harg5 : arg5.IsWhole)
    (x0 : Vec F S1024x1 .f32) (x1 : Vec F S1x1024 .f32) (x2 : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outDiag x0 x1 x2)) -∗ K ⟨⟩))
      ⊢ wp frame (wpE (defs₀ (F := F)) Variants.none c none) E (cc1__scale_kernel i arg2 harg2 arg3 harg3 arg4 harg4 arg5 harg5) K := by
  simp only [cc1__scale_kernel_eq_skeleton]; unfold cc1__scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

set_option maxHeartbeats 1000000 in
/-- Off the diagonal: the same with the result tile at `outOff`. -/
theorem sound_kernel1_off (c : Dev nD) (E : Set ℕ) (i : grid1.Coords) (hc0 : ¬ k1_cond1 i = 1#1) (hc1 : k1_cond2 i = 1#1)
    (arg2 : Memref sig .tc .vmem S1024x1 .f32) (harg2 : arg2.IsWhole) (arg3 : Memref sig .tc .vmem S1x1024 .f32) (harg3 : arg3.IsWhole)
    (arg4 : Memref sig .tc .vmem S1024x1024 .f32) (harg4 : arg4.IsWhole) (arg5 : Memref sig .tc .vmem S1024x1024 .f32) (harg5 : arg5.IsWhole)
    (x0 : Vec F S1024x1 .f32) (x1 : Vec F S1x1024 .f32) (x2 : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outOff x0 x1 x2)) -∗ K ⟨⟩))
      ⊢ wp frame (wpE (defs₀ (F := F)) Variants.none c none) E (cc1__scale_kernel i arg2 harg2 arg3 harg3 arg4 harg4 arg5 harg5) K := by
  simp only [cc1__scale_kernel_eq_skeleton]; unfold cc1__scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- At the coordinates of a grid point: the result tile ends at `out1_3`, whichever case the point is. -/
theorem sound_kernel1 (c : Dev nD) (E : Set ℕ) (t : Fin cfg1.N)
    (arg2 : Memref sig .tc .vmem S1024x1 .f32) (harg2 : arg2.IsWhole) (arg3 : Memref sig .tc .vmem S1x1024 .f32) (harg3 : arg3.IsWhole)
    (arg4 : Memref sig .tc .vmem S1024x1024 .f32) (harg4 : arg4.IsWhole) (arg5 : Memref sig .tc .vmem S1024x1024 .f32) (harg5 : arg5.IsWhole)
    (x0 : Vec F S1024x1 .f32) (x1 : Vec F S1x1024 .f32) (x2 : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 (grid1.coords t) x0 x1 x2)) -∗ K ⟨⟩))
      ⊢ wp frame (wpE (defs₀ (F := F)) Variants.none c none) E (cc1__scale_kernel (grid1.coords t) arg2 harg2 arg3 harg3 arg4 harg4 arg5 harg5) K := by
  rcases diag_or_off t with h | h
  · rw [out1_3_diag h]; exact sound_kernel1_diag c E _ h.1 h.2 arg2 harg2 arg3 harg3 arg4 harg4 arg5 harg5 x0 x1 x2 K
  · rw [out1_3_off h]; exact sound_kernel1_off c E _ h.1 h.2 arg2 harg2 arg3 harg3 arg4 harg4 arg5 harg5 x0 x1 x2 K

/-! ## The pipeline's proof data -/

/-- The proof data of the scaling pipeline on core `c`: the arrays as the region finds them; after the body at point
    `t` each input window's buffer at its block and the result window's at `out1_3` of the three blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (grid1.coords t) (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (grid1.coords t) (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- The result window is written back at every point, so what the obligation asks of its buffer after the body is
    the stated contents, whatever the window's idle table says of the point. -/
theorem leaves1_3 (c : Dev nD) (t : Fin cfg1.N) :
    ((dat1 V c).leavesExact 3 t : sProp 𝕄) = owns (c : Thread nD τ) (st1_3 t) fullShare ((dat1 V c).after 3 t) := by
  unfold Dat.leavesExact
  have hfl : (cfg1.win 3).flush t = true := flush1_3 t
  cases cfg1.idle 3 (cfg1.grid.coords t)
  · rfl
  · simp only [hfl]

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ (dat1 V c).leavesExact 3 t)

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    leaves1_3, after1_0, after1_1, after1_2, after1_3]
  iintro ⟨HΦ, Ho, ⟨%d0, H0⟩, ⟨%d1, H1⟩, ⟨%d2, H2⟩, ⟨%d3, H3⟩⟩
  iapply (sound_kernel1 c Set.univ t _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Regions

end
-- ==== Proof.WholeRun.lean ====
/-
  The whole run of the program: the degree region, the five host operations between the regions (the exponent
  constant, its broadcast, the power of the degrees, and the two reshapes of the scales into a column and a row), and
  the scaling region, as three segments over the core's unscoped buffers.

  The buffers' contents at the segment boundaries are a fold from the launch memory: after the degree region the
  degree vector holds what the region's 32 write-backs leave and every other buffer is as launched; the host stretch
  then writes its five results; after the scaling region the result matrix holds what the 64 write-backs leave.  No
  segment writes the argument matrix, so the fold read at the argument walks back to the launch memory.  The run
  theorem states, for every weakly fair execution from any memory with zero counters: it terminates, nothing faults,
  the result buffer ends at the scaling region's written-back array and the argument ends as launched.
-/
import proofs.«136672_j3178275799590_1_alg».proof.Proof.Gen.KernelIdeal.Launch
import proofs.«136672_j3178275799590_1_alg».proof.Proof.Gen.KernelIdeal.Skeleton
import proofs.«136672_j3178275799590_1_alg».proof.Proof.Gen.KernelIdeal.Points
import proofs.«136672_j3178275799590_1_alg».proof.Proof.Gen.KernelIdeal.Regions
import proofs.«136672_j3178275799590_1_alg».proof.Proof.DegreeRegion
import proofs.«136672_j3178275799590_1_alg».proof.Proof.ScaleRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch (the degree region's entry). -/
abbrev W0 : Dev nD → Valuation τ sig (Elt F) := fun c b => (s₀ m ρ).mem ((c : Dev nD), b)
/-- The same read at the TensorCore's references. -/
abbrev VA : (c : Dev nD) → (b : Ref sig .tc) → Buf (Elt F) ((c : Thread nD τ).loc b) := fun c b => W0 m ρ c b
/-- At the degree region's exit: its arrays at what the pipeline leaves, every other buffer as entered. -/
def W1 (c : Dev nD) : Valuation τ sig (Elt F) :=
  Pipeline.withArrays spec0 c (W0 m ρ c) fun w => (dat0 (VA m ρ) c).arrAt w cfg0.N
theorem W1_arr (c : Dev nD) (w : Fin cfg0.W) :
    W1 m ρ c (Proc.devRef .tc (Pipeline.arrRef spec0 w)) = (dat0 (VA m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev VA' : (c : Dev nD) → (b : Ref sig .tc) → Buf (Elt F) ((c : Thread nD τ).loc b) := fun c b => W1 m ρ c b
theorem hF0 (c : Dev nD) (w : Fin cfg0.W) : (dat0 (VA m ρ) c).arrAt w cfg0.N = VA' m ρ c (Pipeline.arrRef spec0 w) :=
  (W1_arr m ρ c w).symm
theorem hrest0 (c : Dev nD) : ∀ b, b ∉ Finset.univ.image (Pipeline.arrRef spec0) → VA' m ρ c b = VA m ρ c b :=
  fun b hb => W1_of_ne m ρ c b fun w e => hb (Finset.mem_image.mpr ⟨w, Finset.mem_univ _, e⟩)

/-- After the host stretch (the scaling region's entry). -/
abbrev W2 : Dev nD → Valuation τ sig (Elt F) := fun c => StableHlo.after hostOps1 (W1 m ρ c)
/-- The same read at the TensorCore's references. -/
abbrev VB : (c : Dev nD) → (b : Ref sig .tc) → Buf (Elt F) ((c : Thread nD τ).loc b) := fun c b => W2 m ρ c b
/-- At the scaling region's exit: its arrays at what the pipeline leaves, every other buffer as entered. -/
def W3 (c : Dev nD) : Valuation τ sig (Elt F) :=
  Pipeline.withArrays spec1 c (W2 m ρ c) fun w => (dat1 (VB m ρ) c).arrAt w cfg1.N
theorem W3_arr (c : Dev nD) (w : Fin cfg1.W) :
    W3 m ρ c (Proc.devRef .tc (Pipeline.arrRef spec1 w)) = (dat1 (VB m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev VB' : (c : Dev nD) → (b : Ref sig .tc) → Buf (Elt F) ((c : Thread nD τ).loc b) := fun c b => W3 m ρ c b
theorem hF1 (c : Dev nD) (w : Fin cfg1.W) : (dat1 (VB m ρ) c).arrAt w cfg1.N = VB' m ρ c (Pipeline.arrRef spec1 w) :=
  (W3_arr m ρ c w).symm
theorem hrest1 (c : Dev nD) : ∀ b, b ∉ Finset.univ.image (Pipeline.arrRef spec1) → VB' m ρ c b = VB m ρ c b :=
  fun b hb => W3_of_ne m ρ c b fun w e => hb (Finset.mem_image.mpr ⟨w, Finset.mem_univ _, e⟩)

/-! ## The argument ends as launched, the result at the scaling region's array -/

/-- No host operation writes the argument and both regions read it through an input window: the fold at the
    argument's buffer walks back to the launch memory. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 2).trans (((dat1 (VB m ρ) c).arrAt_in 2 rfl _).trans (A_eq1 (VB m ρ) c 2))
    _ = W1 m ρ c (Proc.devRef .tc main_arg0) := StableHlo.after_of_writes_sub hostOps1 _ hostOps1_writes (by decide)
    _ = W0 m ρ c (Proc.devRef .tc main_arg0) := (W1_arr m ρ c 0).trans (((dat0 (VA m ρ) c).arrAt_in 0 rfl _).trans (A_eq0 (VA m ρ) c 0))
    _ = m ((c : Thread nD τ).loc main_arg0) := rfl

/-- The result buffer ends at what the scaling region's write-backs leave. -/
theorem W3_main_v5 (c : Dev nD) : W3 m ρ c (Proc.devRef .tc main_v5) = (dat1 (VB m ρ) c).arrAt 3 cfg1.N :=
  W3_arr m ρ c 3

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VA m ρ) c
  | ⟨1, _⟩ => fun c => dat1 (VB m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The degree region over the thread state: entered from every unscoped buffer at `W0`, left at `W1`.  Its arrays are
    split out of the unscoped buffers and put back at the exit contents; the generator register goes into the
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (VA m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VA m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VA m ρ c) (VA' m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The scaling region over the thread state: entered from every unscoped buffer at `W2`, left at `W3` (what the
    launch reads at the end), in the same way. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VB m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VB m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VB m ρ c) (VB' m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's three segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
/-- The program IS the run of the segments. -/
theorem main_run (c : Dev nD) : main (F := F) c = Pipeline.Seg.run (segs m ρ) := (main_chain c).trans (by chain_rfl)

set_option backward.isDefEq.respectTransparency.types false in
/-- THE RUN, at any float instance: from any memory with zero counters every weakly fair execution of the program
    terminates, nothing faulting, and in every final state the result buffer holds what the scaling region's
    write-backs leave and the argument matrix is as launched. -/
theorem run_all : θ_run defs (onTc (τ := τ) (main (F := F))) ⟨m, fun _ => 0, ρ⟩ (fun r => ∀ c : Dev nD,
      r.2.mem ((c.tc : Thread nD τ).loc main_v5) = (dat1 (VB m ρ) c).arrAt 3 cfg1.N
      ∧ r.2.mem ((c.tc : Thread nD τ).loc main_arg0) = m ((c.tc : Thread nD τ).loc main_arg0)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v5 (by decide))).trans (W3_main_v5 m ρ c),
       (h c _ (mem_uc main_arg0 (by decide))).trans (W3_main_arg0 m ρ c)⟩)

end Cert.KernelIdeal.Regions

end
-- ==== Proof.Spec.lean ====
/-
  The symmetric degree normalisation of an adjacency matrix with self loops, as ONE function of the matrix over
  the extended reals.  With `A` the 8192 × 8192 input, `w` the self-loop weight (the f32 literal 1.0) and `ρ` the
  exponent (the f32 literal -0.5):

    A'(r, q) = A(r, q) + (w if r = q, else 0)          the matrix with self loops
    d(r)     = Σ_k A(r, k) + w                         the degree of row r
    s(r)     = d(r) ^ ρ                                the scale of row r
    N(r, q)  = (s(r) · A'(r, q)) · s(q)                the normalised matrix

  One program sums the rows of `A` and adds `w` once; the other adds the self loops first and sums the rows of
  `A'`.  The two degrees agree because a sum over a row splits over `+` (a fact of any additive commutative monoid,
  so it holds on the extended reals without any finiteness) and the self-loop term is nonzero at one column only.
-/
import Idealize.ShloMosaic.PureOps.Ideal
import Idealize.ShloMosaic.PureOps.Ideal.Laws
import Idealize.ShloMosaic.Lib.ValueIdx

noncomputable section

namespace Cert.NormAdj

open Idealize.ShloMosaic Idealize.ShloMosaic.ValueIdx

/-- An 8192 × 8192 matrix of extended reals. -/
abbrev Mat : Type := (⟨2, ![8192, 8192]⟩ : Shape).Idx → EReal

/-- The weight of a self loop: the f32 literal 1.0. -/
def loopW : EReal := Ideal.ofBits .f32 0x3F800000#32

/-- The exponent of the degree: the f32 literal -0.5. -/
def rate : EReal := Ideal.ofBits .f32 0xBF000000#32

/-- The matrix with self loops, at row `r` and column `q`. -/
def withLoops (adj : Mat) (r q : Fin 8192) : EReal := adj (ix2 r q) + if r = q then loopW else 0

/-- The degree of row `r`: the row's sum plus one self loop. -/
def degree (adj : Mat) (r : Fin 8192) : EReal := (∑ k : Fin 8192, adj (ix2 r k)) + loopW

/-- The scale of row `r`: its degree to the power `rate`. -/
def scale (adj : Mat) (r : Fin 8192) : EReal := Ideal.pow (degree adj r) rate

/-- The normalised matrix at row `r` and column `q`. -/
def normAt (adj : Mat) (r q : Fin 8192) : EReal := scale adj r * withLoops adj r q * scale adj q

/-- The normalised matrix. -/
def normAdj (adj : Mat) : Mat := fun i => normAt adj (i 0) (i 1)

/-- The row sums of the matrix with self loops are the degrees: the sum splits over `+`, and the self-loop
    term is `loopW` at column `r` and zero elsewhere. -/
theorem sum_withLoops (adj : Mat) (r : Fin 8192) : ∑ k : Fin 8192, withLoops adj r k = degree adj r := by
  unfold withLoops degree
  rw [Finset.sum_add_distrib, Finset.sum_ite_eq]
  simp

/-- Off the diagonal the self-loop term vanishes. -/
theorem withLoops_of_ne (adj : Mat) {r q : Fin 8192} (h : r ≠ q) : withLoops adj r q = adj (ix2 r q) := by
  unfold withLoops; rw [if_neg h, add_zero]

/-- On the diagonal it is the weight. -/
theorem withLoops_self (adj : Mat) (r : Fin 8192) : withLoops adj r r = adj (ix2 r r) + loopW := by
  unfold withLoops; rw [if_pos rfl]

end Cert.NormAdj

end
-- ==== Proof.DegreeValue.lean ====
/-
  The value of the degree region and of the host stretch after it, over the extended reals.

  The degree region.  Its grid has 32 points; point `t` stages rows `256·t … 256·t + 255` of the 8192 × 8192 matrix
  `A` (all 8192 columns) and stores, for each of those rows, the sum of the row plus the self-loop weight `w`, into
  entries `256·t … 256·t + 255` of the degree vector.  Read at an index: the lane reduction of the block at row `r`
  is `Σ_k block(r, k)`, the block's entry `(r, k)` is `A(256·t + r, k)`, so what point `t` writes back is block
  `t` of the one vector `d(i) = Σ_k A(i, k) + w`.  Every entry `i` lies in the block of point `i / 256`, and every
  point writes back: the degree vector ends holding `d`.

  The host stretch.  It raises the degree vector to the power `ρ` (the broadcast f32 literal -0.5) entry by entry and
  reshapes the powers to a column [8192, 1] and to a row [1, 8192]; a reshape keeps row-major positions, so the
  column's entry `(p, 0)` and the row's entry `(0, p)` are both the powers' entry `p`, that is `d(p) ^ ρ`.  The
  stretch writes five buffers, none of them the matrix.
-/
import proofs.«136672_j3178275799590_1_alg».proof.Proof.DegreeRegion
import proofs.«136672_j3178275799590_1_alg».proof.Proof.Spec
import proofs.«136672_j3178275799590_1_alg».proof.Proof.Gen.KernelIdeal.Regions
import Idealize.ShloMosaic.Lib.StableHlo.Run
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.Regions

open Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace DegreeValue

/-! ## The body's payload at a row -/

/-- The lane reduction of a 256 × 8192 block read at row `r`: the sum of the row's 8192 entries. -/
theorem laneSum_apply (x0 : FVec Ideal S256x8192 .f32) (hφ : FKind.Formats .f32)
    (hacc : (0x00000000#32 : BitVec FTy.f32.bits) = FKind.add.neutral .f32 hφ) (r : Fin 256) :
    multiReduction (F := Ideal) .add [1] S256 x0 0x00000000#32 reduces_S256x8192_S256 hφ hacc (ix1 r)
      = ∑ k : Fin 8192, x0 (ix2 r k) := by
  refine (Ideal.multiReduction_add_single x0 0x00000000#32 reduces_S256x8192_S256 hφ hacc (ix1 r)).trans ?_
  show ∑ k : Fin 8192, x0 (reduces_S256x8192_S256.lift (ix1 r) k) = _
  refine Finset.sum_congr rfl fun k _ => congrArg x0 ?_
  funext a
  apply Fin.ext
  match a with
  | ⟨0, _⟩ => rfl
  | ⟨1, _⟩ => rfl

/-- The body's payload at row `r` of the block: the row's sum plus the self-loop weight. -/
theorem degPay_apply (x0 : Vec Ideal S256x8192 .f32) (r : Fin 256) :
    (k0_pay1 (F := Ideal) x0 : S256.Idx → EReal) (ix1 r) = (∑ k : Fin 8192, x0 (ix2 r k)) + Cert.NormAdj.loopW := by
  unfold k0_pay1
  rw [addf_apply, broadcast_apply]
  exact congrArg₂ (· + ·) (laneSum_apply x0 _ _ r) rfl

/-! ## The degree region's blocks -/

variable (V : (c : Dev nD) → (b : Ref sig .tc) → Buf (Elt Ideal) ((c : Thread nD τ).loc b))

theorem zeroOff1 : (![0] : Fin 1 → Nat) = fun _ => 0 := funext fun a => by fin_cases a; rfl
theorem zeroOff2 : (![0, 0] : Fin 2 → Nat) = fun _ => 0 := funext fun a => by fin_cases a <;> rfl

/-- The windows' index maps over the 32 points: point `t` stages row block `t` of the matrix (all columns) and
    writes back slice `t` of the degree vector. -/
theorem degIdx_facts : ∀ t : Fin cfg0.N, win0_0.index t (0 : Fin 2) = t.val ∧ win0_0.index t (1 : Fin 2) = 0
    ∧ win0_1.index t (0 : Fin 1) = t.val :=
  (by decide +kernel : ∀ t : Fin grid0.N, _)

/-- The matrix window's block at point `t`, at row `r` and column `k` of the block: the matrix at row
    `256 t + r`, column `k`. -/
theorem rowBlock_apply (c : Dev nD) (t : Fin cfg0.N) (r : Fin 256) (k : Fin 8192) (R : Fin 8192)
    (hR : R.val = 256 * t.val + r.val) :
    (iblk0 V c 0 t : Vec Ideal S256x8192 .f32) (ix2 r k) = (V c main_arg0 : S8192x8192.Idx → EReal) (ix2 R k) := by
  obtain ⟨h0, h1, -⟩ := degIdx_facts t
  unfold iblk0
  rw [View.read_apply]
  show (V c main_arg0 : S8192x8192.Idx → EReal) _ = (V c main_arg0 : S8192x8192.Idx → EReal) _
  congr 1
  funext a
  apply Fin.ext
  match a with
  | ⟨0, _⟩ => show win0_0.index t (0 : Fin 2) * 256 + 1 * r.val = R.val; rw [h0, hR]; omega
  | ⟨1, _⟩ => show win0_0.index t (1 : Fin 2) * 8192 + 1 * k.val = k.val; rw [h1]; omega

/-- WHAT POINT `t` WRITES BACK is block `t` of the degree vector of the matrix the region finds. -/
theorem degFlushed_eq (c : Dev nD) (adj : Cert.NormAdj.Mat) (h : (V c main_arg0 : S8192x8192.Idx → EReal) = adj)
    (t : Fin cfg0.N) :
    (dat0 V c).flushed 1 t
      = ((cfg0.win 1).blk t).view.read (Elt Ideal) (fun i : S8192.Idx => Cert.NormAdj.degree adj (i 0)) := by
  show (cfg0.win 1).cut (grid0.coords t) ((dat0 V c).after 1 t) = _
  rw [after0_1]
  unfold out0_1
  rw [View.canon_unit_zero zeroOff1]
  simp only [View.ld_unit_zero (S := S256x8192) zeroOff2]
  obtain ⟨-, -, ho⟩ := degIdx_facts t
  funext j
  have hj : (j 0).val < 256 := (j 0).isLt
  have hx : (cfg0.win 1).xinj (grid0.coords t) j = ix1 (⟨(j 0).val, hj⟩ : Fin 256) :=
    funext fun a => match a with | ⟨0, _⟩ => rfl
  show k0_pay1 (F := Ideal) (iblk0 V c 0 t) ((cfg0.win 1).xinj (grid0.coords t) j)
    = Cert.NormAdj.degree adj ((((cfg0.win 1).blk t).view.emb j) 0)
  refine (congrArg (k0_pay1 (F := Ideal) (iblk0 V c 0 t)) hx).trans ?_
  refine (degPay_apply (iblk0 V c 0 t) ⟨(j 0).val, hj⟩).trans ?_
  unfold Cert.NormAdj.degree
  refine congrArg₂ (· + ·) (Finset.sum_congr rfl fun k _ => ?_) rfl
  refine (rowBlock_apply V c t ⟨(j 0).val, hj⟩ k ((((cfg0.win 1).blk t).view.emb j) 0) ?_).trans (congrFun h _)
  show win0_1.index t (0 : Fin 1) * 256 + 1 * (j 0).val = 256 * t.val + (j 0).val
  rw [ho]; omega

/-- An index of the degree vector is in point `t`'s block iff it is in the block's range. -/
theorem deg_mem_blk (t : Fin cfg0.N) (i : S8192.Idx) :
    i ∈ ((cfg0.win 1).blk t).view.set
      ↔ ∀ a : Fin 1, win0_1.index t a * S256.size a ≤ (i a).val ∧ (i a).val < win0_1.index t a * S256.size a + S256.size a := by
  show i ∈ ((View.whole main_v0).slice (win0_1.rect t)).set ↔ _
  rw [View.set_slice_whole, Rect.mem_set_unit]
  exact Iff.rfl

/-- Every entry of the degree vector is in the block of the point `i / 256`, which writes back. -/
theorem deg_cover (i : S8192.Idx) : ∃ t : Fin cfg0.N, (cfg0.win 1).flush t = true ∧ i ∈ ((cfg0.win 1).blk t).view.set := by
  have hi : (i 0).val < 8192 := (i 0).isLt
  have hN : cfg0.N = 32 := N_0
  refine ⟨⟨(i 0).val / 256, by rw [hN]; omega⟩, flush0_1 _, ?_⟩
  rw [deg_mem_blk]
  obtain ⟨-, -, ho⟩ := degIdx_facts ⟨(i 0).val / 256, by rw [hN]; omega⟩
  intro a
  match a with
  | ⟨0, _⟩ =>
    show win0_1.index _ (0 : Fin 1) * 256 ≤ (i 0).val ∧ (i 0).val < win0_1.index _ (0 : Fin 1) * 256 + 256
    rw [ho]
    show (i 0).val / 256 * 256 ≤ (i 0).val ∧ (i 0).val < (i 0).val / 256 * 256 + 256
    omega

/-! ## The host stretch at an entry -/

/-- The broadcast exponent at any entry: the f32 literal -0.5. -/
theorem rateVec_apply (p : Fin 8192) :
    broadcastInDim S8192 ![] bcast_S_S8192 (constant (F := Ideal) S_ .f32 0xBF000000#32) (ix1 p) = Cert.NormAdj.rate :=
  (broadcastInDim_apply ![] bcast_S_S8192 _ (ix1 p) ix0 (fun a => a.elim0)).trans rfl

/-- The powers vector at entry `p`, when the degree vector holds `d`. -/
theorem scaleVec_apply (x : S8192.Idx → EReal) (d : Fin 8192 → EReal) (h : x = fun i => d (i 0)) (p : Fin 8192) :
    Host.powf (F := Ideal) (φ := .f32) x (broadcastInDim S8192 ![] bcast_S_S8192 (constant (F := Ideal) S_ .f32 0xBF000000#32)) (ix1 p)
      = Ideal.pow (d p) Cert.NormAdj.rate := by
  show Ideal.pow (x (ix1 p)) (broadcastInDim S8192 ![] bcast_S_S8192 (constant (F := Ideal) S_ .f32 0xBF000000#32) (ix1 p)) = _
  rw [rateVec_apply, h]

end DegreeValue

open DegreeValue

/-- the degree region's final array -/
theorem degree_final (V : (c : Dev nD) → (b : Ref sig .tc) → Buf (Elt Ideal) ((c : Thread nD τ).loc b)) (c : Dev nD)
    (adj : Cert.NormAdj.Mat) (h : (V c main_arg0 : S8192x8192.Idx → EReal) = adj) :
    ((dat0 V c).arrAt 1 cfg0.N : S8192.Idx → EReal) = fun i => Cert.NormAdj.degree adj (i 0) :=
  (dat0 V c).arrAt_eq_of_cover 1 (fun i : S8192.Idx => Cert.NormAdj.degree adj (i 0))
    (fun t _ => degFlushed_eq V c adj h t) deg_cover

/-- the host stretch: from a valuation W of the TensorCore's buffers whose degree vector main_v0 holds d, the two reshaped scales -/
theorem host_scales (W : Valuation τ sig (Elt Ideal)) (d : Fin 8192 → EReal)
    (h : (W (Proc.devRef .tc main_v0) : S8192.Idx → EReal) = fun i => d (i 0)) :
    ((StableHlo.after (hostOps1 (F := Ideal)) W (Proc.devRef .tc main_v3) : S8192x1.Idx → EReal) = fun i => Ideal.pow (d (i 0)) Cert.NormAdj.rate)
    ∧ ((StableHlo.after (hostOps1 (F := Ideal)) W (Proc.devRef .tc main_v4) : S1x8192.Idx → EReal) = fun i => Ideal.pow (d (i 1)) Cert.NormAdj.rate)
    ∧ StableHlo.after (hostOps1 (F := Ideal)) W (Proc.devRef .tc main_arg0) = W (Proc.devRef .tc main_arg0) := by
  refine ⟨?_, ?_, ?_⟩
  · -- the column [8192, 1]: entry (p, 0) is entry p of the powers vector
    show StableHlo.after hostOps1 _ (Proc.devRef .tc main_v3) = _
    after_results
    funext i
    obtain ⟨p, q, rfl⟩ : ∃ (p : Fin 8192) (q : Fin 1), i = ix2 p q := ⟨i 0, i 1, eq_ix2 i⟩
    show shapeCast S8192x1 (Host.powf (F := Ideal) (φ := .f32) (W (Proc.devRef .tc main_v0) : S8192.Idx → EReal)
        (broadcastInDim S8192 ![] bcast_S_S8192 (constant (F := Ideal) S_ .f32 0xBF000000#32))) shapeCasts_S8192_S8192x1 (ix2 p q)
      = Ideal.pow (d p) Cert.NormAdj.rate
    refine (shapeCast_apply _ shapeCasts_S8192_S8192x1 (ix2 p q) (ix1 p) ?_).trans (scaleVec_apply _ d h p)
    rw [Shape.rowMajor_val_one, Shape.rowMajor_val_two]
    show p.val = p.val * 1 + q.val
    have := q.isLt; omega
  · -- the row [1, 8192]: entry (0, p) is entry p of the powers vector
    show StableHlo.after hostOps1 _ (Proc.devRef .tc main_v4) = _
    after_results
    funext i
    obtain ⟨q, p, rfl⟩ : ∃ (q : Fin 1) (p : Fin 8192), i = ix2 q p := ⟨i 0, i 1, eq_ix2 i⟩
    show shapeCast S1x8192 (Host.powf (F := Ideal) (φ := .f32) (W (Proc.devRef .tc main_v0) : S8192.Idx → EReal)
        (broadcastInDim S8192 ![] bcast_S_S8192 (constant (F := Ideal) S_ .f32 0xBF000000#32))) shapeCasts_S8192_S1x8192 (ix2 q p)
      = Ideal.pow (d p) Cert.NormAdj.rate
    refine (shapeCast_apply _ shapeCasts_S8192_S1x8192 (ix2 q p) (ix1 p) ?_).trans (scaleVec_apply _ d h p)
    rw [Shape.rowMajor_val_one, Shape.rowMajor_val_two]
    show p.val = q.val * 8192 + p.val
    have := q.isLt; omega
  · -- the stretch writes the constant, its broadcast, the powers and their two reshapes: never the matrix
    exact StableHlo.after_of_writes_sub hostOps1 W hostOps1_writes (by decide)

end Cert.KernelIdeal.Regions

end
-- ==== Proof.ScaleValue.lean ====
/-
  The VALUE of the second kernel region, the scaling, over the extended reals.

  The region's grid is 8 × 8.  At the point with block indices (I, J) the pipeline stages rows 1024·I … of the column of
  row scales, columns 1024·J … of the row of column scales and the 1024 × 1024 tile (I, J) of the matrix, and the body
  stores the tile (I, J) of the result.  Tile entry (p, q) sits at the matrix index (r, q') = (1024·I + p, 1024·J + q).

  On a diagonal tile (I = J) the body stores  (s_row(p) · (a(p, q) + e(p, q))) · s_col(q),  where e(p, q) is the self-loop
  weight when the two tile coordinates agree as 32-bit words and the zero word otherwise; since both coordinates are below
  1024 the words agree exactly when p = q, and with I = J that is exactly when r = q'.  Off the diagonal (I ≠ J) the body
  stores  (s_row(p) · a(p, q)) · s_col(q),  and there r ≠ q' because the two indices lie in different blocks of 1024, so
  the self-loop term of the specification vanishes.  Either way the stored entry is

      scaled(r, q') = (a0(r) · (a2(r, q') + (w if r = q' else 0))) · a1(q')

  of the three arrays a0, a1, a2 the region finds.  The 64 tiles cover the matrix (index (r, q') lies in the tile with
  block indices (r / 1024, q' / 1024)) and every point writes its tile back, so the result matrix ends at `scaled`;
  with both scale arrays holding one vector s and the matrix buffer holding A this is  s(r) · A'(r, q') · s(q'),  A' the
  matrix with self loops.
-/
import proofs.«136672_j3178275799590_1_alg».proof.Proof.ScaleRegion
import proofs.«136672_j3178275799590_1_alg».proof.Proof.Spec
import Idealize.ShloMosaic.Lib.Pipeline.Value
import Idealize.ShloMosaic.Lib.ValueIdx
import Idealize.ShloMosaic.Lib.StableHlo.Predicate
import Idealize.ShloMosaic.PureOps.Ideal.Laws

set_option maxRecDepth 16384

noncomputable section

namespace Cert.KernelIdeal.Regions

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

namespace ScaleValue

/-! ## Words: the tile's two iotas compared -/

/-- Two tile coordinates, as 32-bit words, compare equal exactly when they are equal. -/
theorem iota_word_eq_iff (p q : Fin 1024) :
    IntOp.cmpi .eq (BitVec.ofNat 32 p.val) (BitVec.ofNat 32 q.val) = 1#1 ↔ p = q := by
  rw [StableHlo.Predicate.cmpi_eq_iff]
  constructor
  · intro h
    have e := congrArg BitVec.toNat h
    simp only [BitVec.toNat_ofNat] at e
    have hp := p.isLt; have hq := q.isLt
    apply Fin.ext; omega
  · rintro rfl; rfl

/-! ## The payloads at an index -/

/-- Off the diagonal: the stored tile at (p, q) is (row scale at p · entry) · column scale at q. -/
theorem pay_off_apply (x0 : Vec Ideal S1024x1 .f32) (x2 : Vec Ideal S1024x1024 .f32) (x1 : Vec Ideal S1x1024 .f32) (p q : Fin 1024) :
    k1_pay2 x0 x2 x1 (ix2 p q) = (x0 (ix2 p (0 : Fin 1)) * x2 (ix2 p q)) * x1 (ix2 (0 : Fin 1) q) := by
  unfold k1_pay2
  rw [shapeCast_self, shapeCast_self]
  refine (mulf_apply _ _ _).trans ?_
  refine congrArg₂ (· * ·) ((mulf_apply _ _ _).trans (congrArg₂ (· * ·) ?_ rfl)) ?_
  · exact broadcastTo_apply x0 broadcasts_S1024x1_S1024x1024 (ix2 p q) (ix2 p (0 : Fin 1)) (fun a => by
      match a with
      | ⟨0, _⟩ => rfl
      | ⟨1, _⟩ => rfl)
  · exact broadcastTo_apply x1 broadcasts_S1x1024_S1024x1024 (ix2 p q) (ix2 (0 : Fin 1) q) (fun a => by
      match a with
      | ⟨0, _⟩ => rfl
      | ⟨1, _⟩ => rfl)

/-- On a diagonal tile: the entry first takes the self-loop weight where the two tile coordinates agree. -/
theorem pay_diag_apply (x0 : Vec Ideal S1024x1 .f32) (x2 : Vec Ideal S1024x1024 .f32) (x1 : Vec Ideal S1x1024 .f32) (p q : Fin 1024) :
    k1_pay1 x0 x2 x1 (ix2 p q)
      = (x0 (ix2 p (0 : Fin 1)) * (x2 (ix2 p q) + if p.val = q.val then Cert.NormAdj.loopW else 0)) * x1 (ix2 (0 : Fin 1) q) := by
  unfold k1_pay1
  rw [shapeCast_self, shapeCast_self]
  refine (mulf_apply _ _ _).trans ?_
  refine congrArg₂ (· * ·) ((mulf_apply _ _ _).trans (congrArg₂ (· * ·) ?_ ((addf_apply _ _ _).trans (congrArg₂ (· + ·) rfl ?_)))) ?_
  · exact broadcastTo_apply x0 broadcasts_S1024x1_S1024x1024 (ix2 p q) (ix2 p (0 : Fin 1)) (fun a => by
      match a with
      | ⟨0, _⟩ => rfl
      | ⟨1, _⟩ => rfl)
  · refine (select_apply _ _ _ _).trans ?_
    rw [broadcast_apply, broadcast_apply]
    show Scalar.select (IntOp.cmpi .eq (iota .tc S1024x1024 32 [0] iota_S1024x1024_d0_w32 (ix2 p q)) (iota .tc S1024x1024 32 [1] iota_S1024x1024_d1_w32 (ix2 p q))) _ _ = _
    rw [iota_single_apply, iota_single_apply]
    show Scalar.select (IntOp.cmpi .eq (BitVec.ofNat 32 p.val) (BitVec.ofNat 32 q.val)) _ _ = _
    by_cases h : p = q
    · rw [(iota_word_eq_iff p q).mpr h, select_one, if_pos (congrArg Fin.val h)]; rfl
    · rw [eq_zero_of_ne_one (fun e => h ((iota_word_eq_iff p q).mp e)), select_zero, if_neg (fun e => h (Fin.ext e))]
      exact Ideal.ofBits_zero_f32
  · exact broadcastTo_apply x1 broadcasts_S1x1024_S1024x1024 (ix2 p q) (ix2 (0 : Fin 1) q) (fun a => by
      match a with
      | ⟨0, _⟩ => rfl
      | ⟨1, _⟩ => rfl)

/-! ## The result as one function of the three arrays -/

/-- What the result matrix holds at row `r`, column `q` (the two coordinates of `i`), as a function of the column of
    row scales `a0`, the row of column scales `a1` and the matrix `a2`:
    `(a0(r) · (a2(r, q) + (loopW if r = q else 0))) · a1(q)`. -/
def scaled (a0 : S8192x1.Idx → EReal) (a1 : S1x8192.Idx → EReal) (a2 : S8192x8192.Idx → EReal) : S8192x8192.Idx → EReal :=
  fun i => (a0 (ix2 (i 0 : Fin 8192) (0 : Fin 1)) * (a2 i + if (i 0).val = (i 1).val then Cert.NormAdj.loopW else 0))
    * a1 (ix2 (0 : Fin 1) (i 1 : Fin 8192))

/-- A diagonal tile, entry by entry: with the tile at block `(I, I)`, tile entry `j` sits at matrix index `i` with
    `i = (1024·I + j₀, 1024·I + j₁)`, so the two tile coordinates agree exactly when the two matrix coordinates do,
    and the stored value is `scaled` at `i`. -/
theorem diag_tile (x0 : Vec Ideal S1024x1 .f32) (x1 : Vec Ideal S1x1024 .f32) (x2 : Vec Ideal S1024x1024 .f32)
    (a0 : S8192x1.Idx → EReal) (a1 : S1x8192.Idx → EReal) (a2 : S8192x8192.Idx → EReal)
    (j : S1024x1024.Idx) (i : S8192x8192.Idx) (I : Nat)
    (hr : (i 0).val = I * 1024 + (j 0).val) (hc : (i 1).val = I * 1024 + (j 1).val)
    (e0 : x0 (ix2 (j 0 : Fin 1024) (0 : Fin 1)) = a0 (ix2 (i 0 : Fin 8192) (0 : Fin 1)))
    (e1 : x1 (ix2 (0 : Fin 1) (j 1 : Fin 1024)) = a1 (ix2 (0 : Fin 1) (i 1 : Fin 8192)))
    (e2 : x2 j = a2 i) :
    k1_pay1 x0 x2 x1 j = scaled a0 a1 a2 i := by
  have ej : x2 (ix2 (j 0 : Fin 1024) (j 1 : Fin 1024)) = a2 i := (congrArg x2 (eq_ix2 j).symm).trans e2
  refine (congrArg (k1_pay1 x0 x2 x1) (eq_ix2 j)).trans ?_
  refine (pay_diag_apply x0 x2 x1 (j 0) (j 1)).trans ?_
  unfold scaled
  rw [e0, e1, ej]
  have hiff : (j 0).val = (j 1).val ↔ (i 0).val = (i 1).val := by omega
  by_cases h : (j 0).val = (j 1).val
  · rw [if_pos h, if_pos (hiff.mp h)]
  · rw [if_neg h, if_neg (fun e => h (hiff.mpr e))]

/-- An off-diagonal tile, entry by entry: with the tile at block `(I, J)`, `I ≠ J`, the matrix index
    `i = (1024·I + j₀, 1024·J + j₁)` is off the diagonal, the self-loop term of `scaled` vanishes there, and the
    stored value is `scaled` at `i`. -/
theorem off_tile (x0 : Vec Ideal S1024x1 .f32) (x1 : Vec Ideal S1x1024 .f32) (x2 : Vec Ideal S1024x1024 .f32)
    (a0 : S8192x1.Idx → EReal) (a1 : S1x8192.Idx → EReal) (a2 : S8192x8192.Idx → EReal)
    (j : S1024x1024.Idx) (i : S8192x8192.Idx) (I J : Nat) (hIJ : I ≠ J)
    (hr : (i 0).val = I * 1024 + (j 0).val) (hc : (i 1).val = J * 1024 + (j 1).val)
    (e0 : x0 (ix2 (j 0 : Fin 1024) (0 : Fin 1)) = a0 (ix2 (i 0 : Fin 8192) (0 : Fin 1)))
    (e1 : x1 (ix2 (0 : Fin 1) (j 1 : Fin 1024)) = a1 (ix2 (0 : Fin 1) (i 1 : Fin 8192)))
    (e2 : x2 j = a2 i) :
    k1_pay2 x0 x2 x1 j = scaled a0 a1 a2 i := by
  have ej : x2 (ix2 (j 0 : Fin 1024) (j 1 : Fin 1024)) = a2 i := (congrArg x2 (eq_ix2 j).symm).trans e2
  refine (congrArg (k1_pay2 x0 x2 x1) (eq_ix2 j)).trans ?_
  refine (pay_off_apply x0 x2 x1 (j 0) (j 1)).trans ?_
  unfold scaled
  rw [e0, e1, ej]
  have hne : ¬ ((i 0).val = (i 1).val) := by
    have h0 : (j 0).val < 1024 := (j 0).isLt
    have h1 : (j 1).val < 1024 := (j 1).isLt
    omega
  rw [if_neg hne, add_zero]

/-! ## The grid's index maps, decided once over the 64 points -/

variable (V : (c : Dev nD) → (b : Ref sig .tc) → Buf (Elt Ideal) ((c : Thread nD τ).loc b))

theorem zero_offsets : (![0, 0] : Fin 2 → Nat) = fun _ => 0 := funext fun a => by fin_cases a <;> rfl

/-- At every point: the row-scale block moves with the result tile's row block and stays at column block 0; the
    column-scale block stays at row block 0 and moves with the tile's column block; the matrix tile is the result
    tile's; both block indices are at most 7; on a diagonal point the two agree, off the diagonal they differ. -/
theorem tile_index_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = win1_3.index t (1 : Fin 2)
    ∧ win1_2.index t (0 : Fin 2) = win1_3.index t (0 : Fin 2) ∧ win1_2.index t (1 : Fin 2) = win1_3.index t (1 : Fin 2)
    ∧ win1_3.index t (0 : Fin 2) ≤ 7 ∧ win1_3.index t (1 : Fin 2) ≤ 7
    ∧ (onDiag (grid1.coords t) → win1_3.index t (0 : Fin 2) = win1_3.index t (1 : Fin 2))
    ∧ (offDiag (grid1.coords t) → win1_3.index t (0 : Fin 2) ≠ win1_3.index t (1 : Fin 2)) :=
  (by decide +kernel : ∀ t : Fin grid1.N, _)

/-- Every pair of block indices below 8 is some point's. -/
theorem tile_index_onto : ∀ (q0 : Fin 8) (q1 : Fin 8), ∃ t : Fin cfg1.N, win1_3.index t = ![q0.val, q1.val] :=
  (by decide +kernel : ∀ (q0 : Fin 8) (q1 : Fin 8), ∃ t : Fin grid1.N, win1_3.index t = ![q0.val, q1.val])

/-! ## The three input blocks read at tile coordinates -/

/-- The row-scale block at point `t`: entry `x` is the column of row scales at row
    `(block index) · 1024 + x₀`. -/
theorem rowBlk_apply (c : Dev nD) (t : Fin cfg1.N) (x : S1024x1.Idx) (k : S8192x1.Idx)
    (hk0 : (k 0).val = win1_0.index t (0 : Fin 2) * 1024 + (x 0).val)
    (hk1 : (k 1).val = win1_0.index t (1 : Fin 2) * 1 + (x 1).val) :
    (iblk1 V c 0 t : Vec Ideal S1024x1 .f32) x = (V c main_v3 : S8192x1.Idx → EReal) k := by
  unfold iblk1
  show (V c main_v3 : S8192x1.Idx → EReal) _ = _
  congr 1
  funext a
  apply Fin.ext
  match a with
  | ⟨0, _⟩ => show win1_0.index t (0 : Fin 2) * 1024 + 1 * (x 0).val = (k 0).val; omega
  | ⟨1, _⟩ => show win1_0.index t (1 : Fin 2) * 1 + 1 * (x 1).val = (k 1).val; omega

/-- The column-scale block at point `t`: entry `x` is the row of column scales at column
    `(block index) · 1024 + x₁`. -/
theorem colBlk_apply (c : Dev nD) (t : Fin cfg1.N) (x : S1x1024.Idx) (k : S1x8192.Idx)
    (hk0 : (k 0).val = win1_1.index t (0 : Fin 2) * 1 + (x 0).val)
    (hk1 : (k 1).val = win1_1.index t (1 : Fin 2) * 1024 + (x 1).val) :
    (iblk1 V c 1 t : Vec Ideal S1x1024 .f32) x = (V c main_v4 : S1x8192.Idx → EReal) k := by
  unfold iblk1
  show (V c main_v4 : S1x8192.Idx → EReal) _ = _
  congr 1
  funext a
  apply Fin.ext
  match a with
  | ⟨0, _⟩ => show win1_1.index t (0 : Fin 2) * 1 + 1 * (x 0).val = (k 0).val; omega
  | ⟨1, _⟩ => show win1_1.index t (1 : Fin 2) * 1024 + 1 * (x 1).val = (k 1).val; omega

/-- The matrix tile at point `t`: entry `x` is the matrix at
    `((row block index) · 1024 + x₀, (column block index) · 1024 + x₁)`. -/
theorem tileBlk_apply (c : Dev nD) (t : Fin cfg1.N) (x : S1024x1024.Idx) (k : S8192x8192.Idx)
    (hk0 : (k 0).val = win1_2.index t (0 : Fin 2) * 1024 + (x 0).val)
    (hk1 : (k 1).val = win1_2.index t (1 : Fin 2) * 1024 + (x 1).val) :
    (iblk1 V c 2 t : Vec Ideal S1024x1024 .f32) x = (V c main_arg0 : S8192x8192.Idx → EReal) k := by
  unfold iblk1
  show (V c main_arg0 : S8192x8192.Idx → EReal) _ = _
  congr 1
  funext a
  apply Fin.ext
  match a with
  | ⟨0, _⟩ => show win1_2.index t (0 : Fin 2) * 1024 + 1 * (x 0).val = (k 0).val; omega
  | ⟨1, _⟩ => show win1_2.index t (1 : Fin 2) * 1024 + 1 * (x 1).val = (k 1).val; omega

/-! ## What a point writes back -/

/-- Point `t` writes back its tile of `scaled` of the three arrays as the region finds them: tile entry `j` sits at
    the matrix index `(1024·I + j₀, 1024·J + j₁)` with `(I, J)` the result tile's block indices, each input block is
    read there, and the point's case (diagonal or not) is the case of those block indices. -/
theorem flushed_eq (c : Dev nD) (t : Fin cfg1.N) :
    (dat1 V c).flushed 3 t
      = ((cfg1.win 3).blk t).view.read (Elt Ideal) (scaled (V c main_v3) (V c main_v4) (V c main_arg0)) := by
  show (cfg1.win 3).cut (grid1.coords t) ((dat1 V c).after 3 t) = _
  rw [after1_3]
  obtain ⟨f0, f1, f2, f3, f4, f5, f6, f7, fd, fo⟩ := tile_index_facts t
  rcases diag_or_off t with h | h
  · rw [out1_3_diag h]
    unfold outDiag
    rw [View.canon_unit_zero zero_offsets]
    simp only [View.ld_unit_zero (S := S1024x1) zero_offsets, View.ld_unit_zero (S := S1x1024) zero_offsets,
      View.ld_unit_zero (S := S1024x1024) zero_offsets]
    funext j
    show k1_pay1 (iblk1 V c 0 t) (iblk1 V c 2 t) (iblk1 V c 1 t) j
      = scaled (V c main_v3) (V c main_v4) (V c main_arg0) (((cfg1.win 3).blk t).view.emb j)
    obtain ⟨i, hi⟩ : ∃ i : S8192x8192.Idx, i = ((cfg1.win 3).blk t).view.emb j := ⟨_, rfl⟩
    rw [← hi]
    have hr : (i 0).val = win1_3.index t (0 : Fin 2) * 1024 + (j 0).val := by
      rw [hi]; show win1_3.index t (0 : Fin 2) * 1024 + 1 * (j 0).val = _; omega
    have hc : (i 1).val = win1_3.index t (1 : Fin 2) * 1024 + (j 1).val := by
      rw [hi]; show win1_3.index t (1 : Fin 2) * 1024 + 1 * (j 1).val = _; omega
    have hd := fd h
    exact diag_tile (iblk1 V c 0 t) (iblk1 V c 1 t) (iblk1 V c 2 t) (V c main_v3) (V c main_v4) (V c main_arg0) j i
      (win1_3.index t (0 : Fin 2)) hr (by rw [hd]; exact hc)
      (rowBlk_apply V c t (ix2 (j 0 : Fin 1024) (0 : Fin 1)) (ix2 (i 0 : Fin 8192) (0 : Fin 1))
        (show (i 0).val = win1_0.index t (0 : Fin 2) * 1024 + (j 0).val by omega)
        (show (0 : Nat) = win1_0.index t (1 : Fin 2) * 1 + 0 by omega))
      (colBlk_apply V c t (ix2 (0 : Fin 1) (j 1 : Fin 1024)) (ix2 (0 : Fin 1) (i 1 : Fin 8192))
        (show (0 : Nat) = win1_1.index t (0 : Fin 2) * 1 + 0 by omega)
        (show (i 1).val = win1_1.index t (1 : Fin 2) * 1024 + (j 1).val by omega))
      (tileBlk_apply V c t j i
        (show (i 0).val = win1_2.index t (0 : Fin 2) * 1024 + (j 0).val by omega)
        (show (i 1).val = win1_2.index t (1 : Fin 2) * 1024 + (j 1).val by omega))
  · rw [out1_3_off h]
    unfold outOff
    rw [View.canon_unit_zero zero_offsets]
    simp only [View.ld_unit_zero (S := S1024x1) zero_offsets, View.ld_unit_zero (S := S1x1024) zero_offsets,
      View.ld_unit_zero (S := S1024x1024) zero_offsets]
    funext j
    show k1_pay2 (iblk1 V c 0 t) (iblk1 V c 2 t) (iblk1 V c 1 t) j
      = scaled (V c main_v3) (V c main_v4) (V c main_arg0) (((cfg1.win 3).blk t).view.emb j)
    obtain ⟨i, hi⟩ : ∃ i : S8192x8192.Idx, i = ((cfg1.win 3).blk t).view.emb j := ⟨_, rfl⟩
    rw [← hi]
    have hr : (i 0).val = win1_3.index t (0 : Fin 2) * 1024 + (j 0).val := by
      rw [hi]; show win1_3.index t (0 : Fin 2) * 1024 + 1 * (j 0).val = _; omega
    have hc : (i 1).val = win1_3.index t (1 : Fin 2) * 1024 + (j 1).val := by
      rw [hi]; show win1_3.index t (1 : Fin 2) * 1024 + 1 * (j 1).val = _; omega
    exact off_tile (iblk1 V c 0 t) (iblk1 V c 1 t) (iblk1 V c 2 t) (V c main_v3) (V c main_v4) (V c main_arg0) j i
      (win1_3.index t (0 : Fin 2)) (win1_3.index t (1 : Fin 2)) (fo h) hr hc
      (rowBlk_apply V c t (ix2 (j 0 : Fin 1024) (0 : Fin 1)) (ix2 (i 0 : Fin 8192) (0 : Fin 1))
        (show (i 0).val = win1_0.index t (0 : Fin 2) * 1024 + (j 0).val by omega)
        (show (0 : Nat) = win1_0.index t (1 : Fin 2) * 1 + 0 by omega))
      (colBlk_apply V c t (ix2 (0 : Fin 1) (j 1 : Fin 1024)) (ix2 (0 : Fin 1) (i 1 : Fin 8192))
        (show (0 : Nat) = win1_1.index t (0 : Fin 2) * 1 + 0 by omega)
        (show (i 1).val = win1_1.index t (1 : Fin 2) * 1024 + (j 1).val by omega))
      (tileBlk_apply V c t j i
        (show (i 0).val = win1_2.index t (0 : Fin 2) * 1024 + (j 0).val by omega)
        (show (i 1).val = win1_2.index t (1 : Fin 2) * 1024 + (j 1).val by omega))

/-! ## From tiles to the matrix -/

/-- A matrix index lies in point `t`'s tile exactly when each coordinate lies in the tile's range on its axis. -/
theorem mem_tile (t : Fin cfg1.N) (i : S8192x8192.Idx) :
    i ∈ ((cfg1.win 3).blk t).view.set
      ↔ ∀ a : Fin 2, win1_3.index t a * S1024x1024.size a ≤ (i a).val
          ∧ (i a).val < win1_3.index t a * S1024x1024.size a + S1024x1024.size a := by
  show i ∈ ((View.whole main_v5).slice (win1_3.rect t)).set ↔ _
  rw [View.set_slice_whole, Rect.mem_set_unit]
  exact Iff.rfl

/-- The 64 tiles cover the matrix: index `(r, q)` lies in the tile of block indices `(r / 1024, q / 1024)`, and every
    point writes its tile back. -/
theorem tiles_cover (i : S8192x8192.Idx) :
    ∃ t : Fin cfg1.N, (cfg1.win 3).flush t = true ∧ i ∈ ((cfg1.win 3).blk t).view.set := by
  have hi0 : (i 0).val < 8192 := (i 0).isLt
  have hi1 : (i 1).val < 8192 := (i 1).isLt
  obtain ⟨t, ht⟩ := tile_index_onto ⟨(i 0).val / 1024, by omega⟩ ⟨(i 1).val / 1024, by omega⟩
  have q0 : win1_3.index t (0 : Fin 2) = (i 0).val / 1024 := congrFun ht 0
  have q1 : win1_3.index t (1 : Fin 2) = (i 1).val / 1024 := congrFun ht 1
  refine ⟨t, flush1_3 t, ?_⟩
  rw [mem_tile]
  intro a
  match a with
  | ⟨0, _⟩ =>
    show win1_3.index t (0 : Fin 2) * 1024 ≤ (i 0).val ∧ (i 0).val < win1_3.index t (0 : Fin 2) * 1024 + 1024
    omega
  | ⟨1, _⟩ =>
    show win1_3.index t (1 : Fin 2) * 1024 ≤ (i 1).val ∧ (i 1).val < win1_3.index t (1 : Fin 2) * 1024 + 1024
    omega

/-- The result matrix after the region's 64 write-backs is `scaled` of the three arrays as the region finds them. -/
theorem scale_array (c : Dev nD) :
    (dat1 V c).arrAt 3 cfg1.N = scaled (V c main_v3) (V c main_v4) (V c main_arg0) :=
  (dat1 V c).arrAt_eq_of_cover 3 (scaled (V c main_v3) (V c main_v4) (V c main_arg0)) (fun t _ => flushed_eq V c t) tiles_cover

/-! ## The value of the region -/

/-- The matrix with self loops, its condition read on the coordinates' values. -/
theorem withLoops_val (adj : Cert.NormAdj.Mat) (r q : Fin 8192) :
    Cert.NormAdj.withLoops adj r q = adj (ix2 r q) + if r.val = q.val then Cert.NormAdj.loopW else 0 := by
  unfold Cert.NormAdj.withLoops
  by_cases h : r = q
  · rw [if_pos h, if_pos (congrArg Fin.val h)]
  · rw [if_neg h, if_neg (fun e => h (Fin.ext e))]

end ScaleValue

open ScaleValue in
/-- THE VALUE OF THE SCALING REGION. If at the region's entry the column of row scales and the row of column
    scales both hold the scale vector `s` and the matrix buffer holds `adj`, the result matrix ends at
    `s(r) · A'(r, q) · s(q)`, with `A'` the matrix with self loops. -/
theorem scale_final (V : (c : Dev nD) → (b : Ref sig .tc) → Buf (Elt Ideal) ((c : Thread nD τ).loc b)) (c : Dev nD)
    (adj : Cert.NormAdj.Mat) (s : Fin 8192 → EReal)
    (h0 : (V c main_v3 : S8192x1.Idx → EReal) = fun i => s (i 0))
    (h1 : (V c main_v4 : S1x8192.Idx → EReal) = fun i => s (i 1))
    (h2 : (V c main_arg0 : S8192x8192.Idx → EReal) = adj) :
    ((dat1 V c).arrAt 3 cfg1.N : S8192x8192.Idx → EReal) = fun i => s (i 0) * Cert.NormAdj.withLoops adj (i 0) (i 1) * s (i 1) := by
  refine (scale_array V c).trans ?_
  rw [h0, h1, h2]
  funext i
  rw [withLoops_val adj (i 0) (i 1)]
  unfold scaled
  have e : adj (ix2 (i 0 : Fin 8192) (i 1 : Fin 8192)) = adj i := congrArg adj (eq_ix2 i).symm
  show s (i 0) * (adj i + _) * s (i 1) = s (i 0) * (adj (ix2 (i 0 : Fin 8192) (i 1 : Fin 8192)) + _) * s (i 1)
  exact congrArg (fun z => s (i 0) * (z + _) * s (i 1)) e.symm

end Cert.KernelIdeal.Regions

end
-- ==== Proof.KernelValue.lean ====
/-
  The idealized kernel's result as the normalised matrix of its argument.

  The run leaves in the result buffer what the scaling region's write-backs leave.  That region is entered from the
  buffers the host stretch leaves, which reads the degree vector the degree region wrote.  So: the degree vector is the
  row sums of the argument plus the self-loop weight (the degree region's value); the two scale operands are that vector
  to the power `rate`, as a column and as a row, and the matrix operand is still the argument (the host stretch's
  value); hence every tile of the result is `(s(r) · A'(r, q)) · s(q)` with `s` the scale and `A'` the argument with
  self loops (the scaling region's value) — the normalised matrix.
-/
import proofs.«136672_j3178275799590_1_alg».proof.Proof.Gen.KernelIdeal.Launch
import proofs.«136672_j3178275799590_1_alg».proof.Proof.Gen.KernelIdeal.Skeleton
import proofs.«136672_j3178275799590_1_alg».proof.Proof.Gen.KernelIdeal.Points
import proofs.«136672_j3178275799590_1_alg».proof.Proof.WholeRun
import proofs.«136672_j3178275799590_1_alg».proof.Proof.DegreeValue
import proofs.«136672_j3178275799590_1_alg».proof.Proof.ScaleValue
import proofs.«136672_j3178275799590_1_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The argument matrix on core `c`. -/
abbrev argMat (c : Dev nD) : Cert.NormAdj.Mat := m ((c : Thread nD τ).loc main_arg0)

/-- After the degree region the degree vector holds the degrees of the argument's rows. -/
theorem degrees_after (c : Dev nD) :
    (W1 m ρ c (Proc.devRef .tc main_v0) : S8192.Idx → EReal) = fun i => Cert.NormAdj.degree (argMat m c) (i 0) :=
  (W1_arr m ρ c 1).trans (degree_final (VA m ρ) c (argMat m c) rfl)

/-- The scaling region finds the scales as a column, -/
theorem entry_col (c : Dev nD) :
    (VB m ρ c main_v3 : S8192x1.Idx → EReal) = fun i => Cert.NormAdj.scale (argMat m c) (i 0) :=
  (host_scales (W1 m ρ c) (Cert.NormAdj.degree (argMat m c)) (degrees_after m ρ c)).1

/-- as a row, -/
theorem entry_row (c : Dev nD) :
    (VB m ρ c main_v4 : S1x8192.Idx → EReal) = fun i => Cert.NormAdj.scale (argMat m c) (i 1) :=
  (host_scales (W1 m ρ c) (Cert.NormAdj.degree (argMat m c)) (degrees_after m ρ c)).2.1

/-- and the argument matrix as launched: neither the degree region nor the host stretch writes it. -/
theorem entry_arg (c : Dev nD) : (VB m ρ c main_arg0 : S8192x8192.Idx → EReal) = argMat m c :=
  (host_scales (W1 m ρ c) (Cert.NormAdj.degree (argMat m c)) (degrees_after m ρ c)).2.2.trans
    ((W1_arr m ρ c 0).trans (((dat0 (VA m ρ) c).arrAt_in 0 rfl _).trans (A_eq0 (VA m ρ) c 0)))

/-- What the scaling region's write-backs leave is the normalised matrix of the argument. -/
theorem result_eq (c : Dev nD) :
    ((dat1 (VB m ρ) c).arrAt 3 cfg1.N : S8192x8192.Idx → EReal) = Cert.NormAdj.normAdj (argMat m c) :=
  scale_final (VB m ρ) c (argMat m c) (Cert.NormAdj.scale (argMat m c)) (entry_col m ρ c) (entry_row m ρ c) (entry_arg m ρ c)

/-- THE VALUE RUN: every weakly fair execution of the idealized kernel terminates with the result buffer at the
    normalised matrix of the argument and the argument as launched. -/
theorem value_run : θ_run defs (onTc (τ := τ) (main (F := Ideal))) ⟨m, fun _ => 0, ρ⟩ (fun r => ∀ c : Dev nD,
      r.2.mem ((c.tc : Thread nD τ).loc main_v5) = Cert.NormAdj.normAdj (m ((c.tc : Thread nD τ).loc main_arg0))
      ∧ r.2.mem ((c.tc : Thread nD τ).loc main_arg0) = m ((c.tc : Thread nD τ).loc main_arg0)) :=
  (θ_run defs _ _).mono (fun r h c => ⟨(h c).1.trans (result_eq m ρ c), (h c).2⟩) (run_all (F := Ideal) m ρ)

end Cert.KernelIdeal.Regions

end
-- ==== Proof.LibPairScatter.lean ====
/-
  An accumulating scatter of single entries into a two-axis table by pairs of indices, read at an index.

  x.at[i, j].add(u) with two index arrays lowers to a scatter whose scatter indices are the pairs [E, 2], both operand
  axes inserted and both named by the map: update e lands on the entry at row idx[e, 0] and column idx[e, 1], each read as
  a signed integer and not clamped; an update whose row or column is outside the table lands nowhere. At the extended
  reals the result at an entry is the entry plus the sum of the updates that land on it.
-/
import Idealize.ShloMosaic.PureOps.Ideal
import Idealize.ShloMosaic.PureOps.Ideal.Laws
import Idealize.ShloMosaic.Lib.ValueIdx

noncomputable section

namespace Cert.PairScatter

open Idealize.ShloMosaic Idealize.ShloMosaic.ValueIdx

/-- The dimension numbers of a pair scatter: operand [A, B], scatter indices [E, 2], updates [E]. -/
abbrev pairScatterDims (A B E : Nat)
    (wf : ScatterDims.WF ⟨2, ![A, B]⟩ ⟨2, ![E, 2]⟩ ⟨1, ![E]⟩ [] [0, 1] [0, 1] 1) :
    ScatterDims ⟨2, ![A, B]⟩ ⟨2, ![E, 2]⟩ ⟨1, ![E]⟩ where
  updateWindowDims := []
  insertedWindowDims := [0, 1]
  scatterDimsToOperandDims := [0, 1]
  indexVectorDim := 1
  wf := wf

section
variable {A B E : Nat} (wf : ScatterDims.WF ⟨2, ![A, B]⟩ ⟨2, ![E, 2]⟩ ⟨1, ![E]⟩ [] [0, 1] [0, 1] 1)

/-- Axis 0 is named first by the map: its window starts at the signed index read at [e, 0]. -/
theorem start0 (idx : IVec ⟨2, ![E, 2]⟩ 32) (j : (⟨1, ![E]⟩ : Shape).Idx) :
    (pairScatterDims A B E wf).start j idx 0 = (idx (ix2 (j 0) (0 : Fin 2))).toInt := by
  unfold ScatterDims.start
  have hm : (0 : Fin 2) ∈ (pairScatterDims A B E wf).scatterDimsToOperandDims :=
    show (0 : Fin 2) ∈ ([0, 1] : List (Fin 2)) by decide
  rw [dif_pos hm]
  have hsi : (pairScatterDims A B E wf).siIdx j
      ⟨List.idxOf (0 : Fin 2) (pairScatterDims A B E wf).scatterDimsToOperandDims,
        List.idxOf_lt_length_iff.2 hm⟩ = ix2 (j 0) (0 : Fin 2) := by
    funext b; refine Fin.ext ?_
    match b with
    | ⟨0, _⟩ => rfl
    | ⟨1, _⟩ => rfl
  rw [hsi]
  rfl

/-- Axis 1 is named second by the map: its window starts at the signed index read at [e, 1]. -/
theorem start1 (idx : IVec ⟨2, ![E, 2]⟩ 32) (j : (⟨1, ![E]⟩ : Shape).Idx) :
    (pairScatterDims A B E wf).start j idx 1 = (idx (ix2 (j 0) (1 : Fin 2))).toInt := by
  unfold ScatterDims.start
  have hm : (1 : Fin 2) ∈ (pairScatterDims A B E wf).scatterDimsToOperandDims :=
    show (1 : Fin 2) ∈ ([0, 1] : List (Fin 2)) by decide
  rw [dif_pos hm]
  have hsi : (pairScatterDims A B E wf).siIdx j
      ⟨List.idxOf (1 : Fin 2) (pairScatterDims A B E wf).scatterDimsToOperandDims,
        List.idxOf_lt_length_iff.2 hm⟩ = ix2 (j 0) (1 : Fin 2) := by
    funext b; refine Fin.ext ?_
    match b with
    | ⟨0, _⟩ => rfl
    | ⟨1, _⟩ => rfl
  rw [hsi]
  rfl

/-- Both operand axes are inserted: no update axis is a window axis, so every window coordinate is zero. -/
theorem window_zero (j : (⟨1, ![E]⟩ : Shape).Idx) (a : Fin 2) : (pairScatterDims A B E wf).window j a = 0 := by
  unfold ScatterDims.window
  rw [dif_neg]
  show ¬ a ∈ (List.finRange 2).filter (fun a => a ∉ ([0, 1] : List (Fin 2)))
  revert a; decide

/-- Update e lands at (r, q) exactly when idx[e, 0] = r and idx[e, 1] = q as signed integers. -/
theorem resultIdx_iff (idx : IVec ⟨2, ![E, 2]⟩ 32) (j : (⟨1, ![E]⟩ : Shape).Idx) (i : (⟨2, ![A, B]⟩ : Shape).Idx) :
    (pairScatterDims A B E wf).resultIdx? j idx = some i
      ↔ (idx (ix2 (j 0) (0 : Fin 2))).toInt = ((i 0).val : Int) ∧ (idx (ix2 (j 0) (1 : Fin 2))).toInt = ((i 1).val : Int) := by
  have hs0 := start0 wf idx j
  have hs1 := start1 wf idx j
  have hw0 := window_zero wf j 0
  have hw1 := window_zero wf j 1
  have hi0 : (i 0).val < A := idx2_lt0 i
  have hi1 : (i 1).val < B := idx2_lt1 i
  constructor
  · intro h
    unfold ScatterDims.resultIdx? at h
    split at h
    · rename_i hr
      have hf := Option.some.inj h
      have h0 : ((pairScatterDims A B E wf).start j idx 0 + ((pairScatterDims A B E wf).window j 0 : Nat)).toNat
          = (i 0).val := congrArg Fin.val (congrFun hf 0)
      have h1 : ((pairScatterDims A B E wf).start j idx 1 + ((pairScatterDims A B E wf).window j 1 : Nat)).toNat
          = (i 1).val := congrArg Fin.val (congrFun hf 1)
      have hr0 := (hr 0).1
      have hr1 := (hr 1).1
      rw [hs0, hw0] at h0 hr0
      rw [hs1, hw1] at h1 hr1
      simp only [Nat.cast_zero, Int.add_zero] at h0 h1 hr0 hr1
      omega
    · exact absurd h (by simp)
  · rintro ⟨h0, h1⟩
    have hall : ∀ a, 0 ≤ (pairScatterDims A B E wf).start j idx a + ((pairScatterDims A B E wf).window j a : Nat) ∧
        (pairScatterDims A B E wf).start j idx a + ((pairScatterDims A B E wf).window j a : Nat)
          < ((⟨2, ![A, B]⟩ : Shape).size a : Nat) := by
      intro a
      match a with
      | ⟨0, _⟩ =>
        show 0 ≤ (pairScatterDims A B E wf).start j idx 0 + ((pairScatterDims A B E wf).window j 0 : Nat) ∧
          (pairScatterDims A B E wf).start j idx 0 + ((pairScatterDims A B E wf).window j 0 : Nat) < (A : Int)
        rw [hs0, hw0, h0]
        simp only [Nat.cast_zero, Int.add_zero]
        omega
      | ⟨1, _⟩ =>
        show 0 ≤ (pairScatterDims A B E wf).start j idx 1 + ((pairScatterDims A B E wf).window j 1 : Nat) ∧
          (pairScatterDims A B E wf).start j idx 1 + ((pairScatterDims A B E wf).window j 1 : Nat) < (B : Int)
        rw [hs1, hw1, h1]
        simp only [Nat.cast_zero, Int.add_zero]
        omega
    unfold ScatterDims.resultIdx?
    rw [dif_pos hall]
    congr 1
    funext a
    refine Fin.ext ?_
    match a with
    | ⟨0, _⟩ =>
      show ((pairScatterDims A B E wf).start j idx 0 + ((pairScatterDims A B E wf).window j 0 : Nat)).toNat = (i 0).val
      rw [hs0, hw0, h0]
      simp only [Nat.cast_zero, Int.add_zero, Int.toNat_natCast]
    | ⟨1, _⟩ =>
      show ((pairScatterDims A B E wf).start j idx 1 + ((pairScatterDims A B E wf).window j 1 : Nat)).toNat = (i 1).val
      rw [hs1, hw1, h1]
      simp only [Nat.cast_zero, Int.add_zero, Int.toNat_natCast]

/-- A pair scatter-add at (r, q): the entry there plus the updates whose index pair, read signed, is (r, q). -/
theorem scatterAddPair_apply (x : (⟨2, ![A, B]⟩ : Shape).Idx → EReal) (idx : IVec ⟨2, ![E, 2]⟩ 32)
    (upd : (⟨1, ![E]⟩ : Shape).Idx → EReal) (r : Fin A) (q : Fin B) :
    Ideal.hostScatterAdd (pairScatterDims A B E wf) x idx upd (ix2 r q)
      = x (ix2 r q) + ∑ e ∈ Finset.univ.filter (fun e : Fin E =>
          (idx (ix2 e (0 : Fin 2))).toInt = (r.val : Int) ∧ (idx (ix2 e (1 : Fin 2))).toInt = (q.val : Int)), upd (ix1 e) := by
  show x (ix2 r q) + ∑ j ∈ Finset.univ.filter
      (fun j => (pairScatterDims A B E wf).resultIdx? j idx = some (ix2 r q)), upd j = _
  congr 1
  -- the updates that land at (r, q) are, through the coordinate, the e whose index pair is (r, q)
  refine Finset.sum_nbij' (fun j => j 0) (fun e => ix1 e) ?_ ?_ ?_ ?_ ?_
  · intro j hj
    exact Finset.mem_filter.mpr ⟨Finset.mem_univ _,
      (resultIdx_iff wf idx j (ix2 r q)).mp (Finset.mem_filter.mp hj).2⟩
  · intro e he
    exact Finset.mem_filter.mpr ⟨Finset.mem_univ _,
      (resultIdx_iff wf idx (ix1 e) (ix2 r q)).mpr (Finset.mem_filter.mp he).2⟩
  · intro j _
    exact (eq_ix1 j).symm
  · intro e _
    rfl
  · intro j _
    exact congrArg upd (eq_ix1 j)

end

end Cert.PairScatter

end
-- ==== Proof.RefValue.lean ====
/-
  The reference computes the symmetric degree normalisation of the adjacency matrix with self loops.

  Read at an index over the extended reals, stage by stage: the two index columns hold the row numbers (no row number is
  negative, so the wrap-around of negative indices changes nothing); laid side by side they are the pairs (j, j); the
  scatter adds the weight of a self loop to the entry at each pair, so it yields A'(r, q) = A(r, q) + (w if r = q, else 0);
  the row sums of A', taken from zero, are the degrees d(r); their powers are the scales s(r); and the two broadcasts and
  the two products give (s(r) · A'(r, q)) · s(q).
-/
import proofs.«136672_j3178275799590_1_alg».proof.Proof.Gen.ReferenceIdeal.Read
import proofs.«136672_j3178275799590_1_alg».proof.Proof.Spec
import proofs.«136672_j3178275799590_1_alg».proof.Proof.LibPairScatter
import Idealize.ShloMosaic.Lib.ValueIdx
import Idealize.ShloMosaic.Lib.DynamicIndex
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx Cert.NormAdj

/-! ## The index columns -/

/-- Row number j as a 32-bit word. -/
abbrev word (j : Fin 8192) : BitVec 32 := BitVec.ofNat 32 j.val

/-- Read signed, the word of a row number is the row number: 8192 is below 2 ^ 31. -/
theorem word_toInt (j : Fin 8192) : (word j).toInt = (j.val : Int) :=
  toInt_ofNat_of_lt (by have := j.isLt; omega)

/-- A select on "the word is negative, read signed" takes its second branch at a word that is not negative. -/
theorem select_slt_zero (x a b : BitVec 32) (h : 0 ≤ x.toInt) : Scalar.select (IntOp.cmpi .slt x 0#32) a b = b := by
  have hlt : x.slt 0#32 = false := by
    simp only [BitVec.slt, BitVec.toInt_zero, decide_eq_false_iff_not, Int.not_lt]
    exact h
  show (if BitVec.ofBool (x.slt 0#32) = 1 then a else b) = b
  rw [hlt]
  rfl

/-- The row numbers with negative ones wrapped around: no row number is negative, so entry j is the word of j. -/
theorem v5_apply (j : Fin 8192) : Read.val_main_v5 (F := Ideal) (ix1 j) = word j := by
  rw [Read.val_main_v5_apply, Read.val_main_v2_apply, Read.val_main_v1_apply, Read.val_main_c_apply,
    Read.val_main_v0_apply]
  exact select_slt_zero _ _ _ (by rw [show BitVec.ofNat 32 ((ix1 j) 0).val = word j from rfl, word_toInt]; omega)

/-- The same for the second copy of the row numbers. -/
theorem v10_apply (j : Fin 8192) : Read.val_main_v10 (F := Ideal) (ix1 j) = word j := by
  rw [Read.val_main_v10_apply, Read.val_main_v7_apply, Read.val_main_v6_apply, Read.val_main_c_1_apply,
    Read.val_main_v0_apply]
  exact select_slt_zero _ _ _ (by rw [show BitVec.ofNat 32 ((ix1 j) 0).val = word j from rfl, word_toInt]; omega)

/-- The first column [8192, 1] at row j. -/
theorem v11_apply (j : Fin 8192) : Read.val_main_v11 (F := Ideal) (ix2 j (0 : Fin 1)) = word j := by
  have e : Read.idx_main_v11 (ix2 j (0 : Fin 1)) = ix1 j := funext fun a => by match a with | ⟨0, _⟩ => rfl
  rw [Read.val_main_v11_apply, e, v5_apply]

/-- The second column [8192, 1] at row j. -/
theorem v12_apply (j : Fin 8192) : Read.val_main_v12 (F := Ideal) (ix2 j (0 : Fin 1)) = word j := by
  have e : Read.idx_main_v12 (ix2 j (0 : Fin 1)) = ix1 j := funext fun a => by match a with | ⟨0, _⟩ => rfl
  rw [Read.val_main_v12_apply, e, v10_apply]

/-- The index pairs [8192, 2], first component of pair j: the first column's row j. -/
theorem v13_apply0 (j : Fin 8192) : Read.val_main_v13 (F := Ideal) (ix2 j (0 : Fin 2)) = word j := by
  unfold Read.val_main_v13
  rw [concatenate_pair_apply_left (1 : Fin S8192x2.rank) _ _ concatenates_S8192x1_S8192x1_S8192x2_d1
    (ix2 j (0 : Fin 2)) rfl (ix2 j (0 : Fin 1)) (fun b => by match b with | ⟨0, _⟩ => rfl | ⟨1, _⟩ => rfl)]
  exact v11_apply j

/-- The index pairs, second component of pair j: the second column's row j (one past the first column's one entry). -/
theorem v13_apply1 (j : Fin 8192) : Read.val_main_v13 (F := Ideal) (ix2 j (1 : Fin 2)) = word j := by
  unfold Read.val_main_v13
  rw [concatenate_pair_apply_right (1 : Fin S8192x2.rank) _ _ concatenates_S8192x1_S8192x1_S8192x2_d1
    (ix2 j (1 : Fin 2)) rfl rfl (ix2 j (0 : Fin 1))
    (fun b => by match b with | ⟨0, _⟩ => exact fun _ => rfl | ⟨1, _⟩ => exact fun h => absurd rfl h) rfl]
  exact v12_apply j

/-! ## The self loops -/

/-- Every update is the weight of a self loop. -/
theorem v14_apply (j : Fin 8192) : Read.val_main_v14 (F := Ideal) (ix1 j) = loopW := by
  rw [Read.val_main_v14_apply, Read.val_main_cst_apply, Ideal.ofBits_def]
  rfl

/-- The scatter's dimension numbers are those of a scatter by index pairs. -/
theorem scatter_eq : scatter_S8192x8192_S8192x2_S8192_n_01_01_1
    = Cert.PairScatter.pairScatterDims 8192 8192 8192 scatter_S8192x8192_S8192x2_S8192_n_01_01_1_wf := rfl

/-- A constant summed over the pairs (j, j) that equal (r, q): one term on the diagonal, none off it. -/
theorem sum_diag (r q : Fin 8192) (c : EReal) :
    ∑ e ∈ Finset.univ.filter (fun e : Fin 8192 => (e.val : Int) = (r.val : Int) ∧ (e.val : Int) = (q.val : Int)), c
      = if r = q then c else 0 := by
  by_cases h : r = q
  · subst h
    have hs : Finset.univ.filter (fun e : Fin 8192 => (e.val : Int) = (r.val : Int) ∧ (e.val : Int) = (r.val : Int))
        = {r} := by
      ext e
      simp only [Finset.mem_filter, Finset.mem_univ, true_and, Finset.mem_singleton]
      constructor
      · rintro ⟨h1, _⟩
        exact Fin.ext (by omega)
      · rintro rfl
        exact ⟨rfl, rfl⟩
    rw [if_pos rfl, hs, Finset.sum_singleton]
  · have hs : Finset.univ.filter (fun e : Fin 8192 => (e.val : Int) = (r.val : Int) ∧ (e.val : Int) = (q.val : Int))
        = ∅ := by
      rw [Finset.filter_eq_empty_iff]
      rintro e _ ⟨h1, h2⟩
      exact h (Fin.ext (by omega))
    rw [if_neg h, hs, Finset.sum_empty]

/-- The scatter adds the weight at the pairs (j, j): the matrix with self loops. -/
theorem v15_apply (adj : (⟨S8192x8192, .f32⟩ : BufTy).Contents (Elt Ideal)) (r q : Fin 8192) :
    Read.val_main_v15 (F := Ideal) adj (ix2 r q) = withLoops adj r q := by
  unfold Read.val_main_v15 Host.scatterAdd
  rw [Ideal.hostScatterAdd_def, scatter_eq, Cert.PairScatter.scatterAddPair_apply]
  simp only [v13_apply0, v13_apply1, v14_apply, word_toInt]
  rw [sum_diag]
  rfl

/-! ## Degrees, scales and the normalised matrix -/

/-- The row sums of the matrix with self loops, from zero: the degrees. -/
theorem v16_apply (adj : (⟨S8192x8192, .f32⟩ : BufTy).Contents (Elt Ideal)) (r : Fin 8192) :
    Read.val_main_v16 (F := Ideal) adj (ix1 r) = degree adj r := by
  rw [Read.val_main_v16_apply, Read.val_main_cst_3_apply, Ideal.ofBits_def, Ideal.ofBits_zero_f32, zero_add,
    ← sum_withLoops]
  refine Finset.sum_congr rfl fun k _ => ?_
  have e : Read.idx_main_v16 (ix1 r) k = ix2 r k :=
    funext fun a => by match a with | ⟨0, _⟩ => rfl | ⟨1, _⟩ => rfl
  rw [e, v15_apply]

/-- The degrees to the power rate: the scales. -/
theorem v18_apply (adj : (⟨S8192x8192, .f32⟩ : BufTy).Contents (Elt Ideal)) (r : Fin 8192) :
    Read.val_main_v18 (F := Ideal) adj (ix1 r) = scale adj r := by
  rw [Read.val_main_v18_apply, Read.val_main_v17_apply, Read.val_main_cst_4_apply, v16_apply, Ideal.hostPowf_def,
    Ideal.ofBits_def]
  rfl

/-- The reference computes the normalised matrix. -/
theorem ref_eq (adj : (⟨Cert.ReferenceIdeal.S8192x8192, .f32⟩ : BufTy).Contents (Elt Ideal)) :
    Cert.ReferenceIdeal.Read.val_main_v24 (F := Ideal) adj = Cert.NormAdj.normAdj adj := by
  funext i
  obtain ⟨r, q, rfl⟩ : ∃ (r q : Fin 8192), i = ix2 r q := ⟨i 0, i 1, eq_ix2 i⟩
  -- the row scale is read at row r, the column scale at row q
  have e1 : Read.idx_main_v19 (Read.idx_main_v20 (ix2 r q)) = ix1 r :=
    funext fun a => by match a with | ⟨0, _⟩ => rfl
  have e2 : Read.idx_main_v22 (Read.idx_main_v23 (ix2 r q)) = ix1 q :=
    funext fun a => by match a with | ⟨0, _⟩ => rfl
  rw [Read.val_main_v24_apply, Read.val_main_v21_apply, Read.val_main_v20_apply, Read.val_main_v19_apply,
    Read.val_main_v23_apply, Read.val_main_v22_apply, e1, e2, v18_apply, v18_apply, v15_apply, Ideal.mulf_def,
    Ideal.mulf_def]
  rfl

end Cert.ReferenceIdeal.RefValue

end
-- ==== Proof.lean ====
/-
  The certificate of the degree-normalised adjacency kernel against its reference, over the extended reals.

  Both programs compute `N(r, q) = (s(r) · A'(r, q)) · s(q)` from the 8192 × 8192 argument `A`, where `A'` is `A` with the
  self-loop weight added on the diagonal, `d(r)` is the degree of row `r` and `s(r) = d(r) ^ (-1/2)` (Proof/Spec.lean).
  The kernel computes `d(r)` as the row sum of `A` plus the weight, in a first region, and scales tile by tile in a
  second, adding the diagonal only on the tiles that meet it; the reference adds the diagonal by a scatter, sums the
  rows of `A'`, and scales the whole matrix.  The two degrees agree because a finite sum splits over `+` on the extended
  reals, so no finiteness of the input is used.

  The three frames are runs: the kernel's two (word-level and idealized) are the three-segment run of Proof/WholeRun.lean
  and its word-level sibling, the reference's is its run with the result dropped.  The idealization rewrote nothing, so
  `preserves` is trivial.  The algebraic conjunct puts the idealized kernel's value run (Proof/KernelValue.lean) beside
  the reference's run read as the same function (Proof/RefValue.lean).
-/
import proofs.«136672_j3178275799590_1_alg».proof.Defs
import proofs.«136672_j3178275799590_1_alg».proof.Proof.Gen.Kernel
import proofs.«136672_j3178275799590_1_alg».proof.Proof.Gen.KernelIdeal
import proofs.«136672_j3178275799590_1_alg».proof.Proof.Gen.ReferenceIdeal
import proofs.«136672_j3178275799590_1_alg».proof.Proof.Gen.Pre_finite_inputs
import proofs.«136672_j3178275799590_1_alg».proof.Proof.Gen.ReferenceIdeal.Run
import proofs.«136672_j3178275799590_1_alg».proof.Proof.Gen.ReferenceIdeal.Read
import proofs.«136672_j3178275799590_1_alg».proof.Proof.WordWholeRun
import proofs.«136672_j3178275799590_1_alg».proof.Proof.WholeRun
import proofs.«136672_j3178275799590_1_alg».proof.Proof.KernelValue
import proofs.«136672_j3178275799590_1_alg».proof.Proof.RefValue
import Idealize.ShloMosaic.Adequacy
import Idealize.ShloMosaic.Init

noncomputable section

namespace Cert.Proof

open Idealize.ShloMosaic Idealize.SL.Sem

/-- The word-level kernel runs and leaves its argument unchanged: its three-segment run, the result dropped. -/
theorem frame_p : Cert.frame_Kernel := fun m ρ _ =>
  (θ_run Cert.Kernel.defs _ _).mono (fun _ h c => (h c).2) (Cert.Kernel.Regions.run_all (F := Bits) m ρ)

/-- The idealized kernel likewise. -/
theorem frame_pi : Cert.frame_KernelIdeal := fun m ρ _ =>
  (θ_run Cert.KernelIdeal.defs _ _).mono (fun _ h c => (h c).2) (Cert.KernelIdeal.Regions.run_all (F := Ideal) m ρ)

/-- The reference runs and leaves its argument unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the argument both idealized programs end with the normalised matrix of that argument. -/
theorem algebraic : Cert.algebraic_KernelIdeal_ReferenceIdeal := by
  intro m ρ m' ρ' _ hagree
  refine ⟨fun c => Cert.NormAdj.normAdj (m ((c.tc : Thread Cert.KernelIdeal.nD Cert.KernelIdeal.τ).loc Cert.KernelIdeal.main_arg0)),
    Cert.KernelIdeal.Regions.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.ref_eq, hagree c]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
